-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x5 : Shape := ⟨2, ![1000000, 5]⟩
abbrev S2x32000000 : Shape := ⟨2, ![2, 32000000]⟩
abbrev S5x5 : Shape := ⟨2, ![5, 5]⟩
abbrev S5 : Shape := ⟨1, ![5]⟩
abbrev S5x1 : Shape := ⟨2, ![5, 1]⟩
abbrev S1 : Shape := ⟨1, ![1]⟩
abbrev S_ : Shape := ⟨0, ![]⟩

class Facts : Prop where
  bcast_S_S1000000x5 : S_.BroadcastsInDim S1000000x5 (![] : Fin 0 → Fin S1000000x5.rank)
  reducesTo_S1000000x5_S_d0_1 : S1000000x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S5 .f32) (main_arg6 : FVec F S5x1 .f32) (main_arg7 : FVec F S1 .f32) (main_v13 : IVec S_ 1) (main_v16 : IVec S5x5 1) : IVec S_ 1 :=
  let main_c_5 : IVec S_ 1 := constantI S_ 1 1#1
  let main_v17 : IVec S_ 1 := (fun x v => Host.reduce IntOp.andi x v reducesTo_S5x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x1 .f32 := Host.absf main_arg6
  let main_cst_8 : FVec F S_ .f32 := constant S_ .f32 0x7F800000#32
  let main_v25 : FVec F S5x1 .f32 := broadcastInDim S5x1 ![] bcast_S_S5x1 main_cst_8
  let main_v26 : IVec S5x1 1 := cmpf .olt main_v24 main_v25
  let main_c_9 : IVec S_ 1 := constantI S_ 1 1#1
  let main_v27 : IVec S_ 1 := (fun x v => Host.reduce IntOp.andi x v reducesTo_S5x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1000000x5 .f32) (main_arg1 : IVec S2x32000000 32) (main_arg2 : FVec F S5x5 .f32) (main_arg3 : FVec F S5 .f32) (main_arg4 : FVec F S5x5 .f32) (main_arg5 : FVec F S5 .f32) (main_arg6 : FVec F S5x1 .f32) (main_arg7 : FVec F S1 .f32) : IVec S_ 1 :=
  let main_v0 : FVec F S1000000x5 .f32 := Host.absf main_arg0
  let main_cst : FVec F S_ .f32 := constant S_ .f32 0x7F800000#32
  let main_v1 : FVec F S1000000x5 .f32 := broadcastInDim S1000000x5 ![] bcast_S_S1000000x5 main_cst
  let main_v2 : IVec S1000000x5 1 := cmpf .olt main_v0 main_v1
  let main_c : IVec S_ 1 := constantI S_ 1 1#1
  let main_v3 : IVec S_ 1 := (fun x v => Host.reduce IntOp.andi x v reducesTo_S1000000x5_S_d0_1 h_S_) main_v2 main_c
  let main_v4 : FVec F S5x5 .f32 := Host.absf main_arg2
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x5 .f32 := Host.absf main_arg4
  let main_cst_4 : FVec F S_ .f32 := constant S_ .f32 0x7F800000#32
  let main_v15 : FVec F S5x5 .f32 := broadcastInDim S5x5 ![] bcast_S_S5x5 main_cst_4
  let main_v16 : IVec S5x5 1 := cmpf .olt main_v14 main_v15
  fn_part1 (F := F) main_arg5 main_arg6 main_arg7 main_v13 main_v16
-- ==== Kernel.lean ====
abbrev S1000000x5 : Shape := ⟨2, ![1000000, 5]⟩
abbrev S2x32000000 : Shape := ⟨2, ![2, 32000000]⟩
abbrev S5x5 : Shape := ⟨2, ![5, 5]⟩
abbrev S5 : Shape := ⟨1, ![5]⟩
abbrev S5x1 : Shape := ⟨2, ![5, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S177600 : Shape := ⟨1, ![177600]⟩
abbrev S33177600 : Shape := ⟨1, ![33177600]⟩
abbrev S33177600x5 : Shape := ⟨2, ![33177600, 5]⟩
abbrev S165888000 : Shape := ⟨1, ![165888000]⟩
abbrev S1296000x128 : Shape := ⟨2, ![1296000, 128]⟩
abbrev S10000x5 : Shape := ⟨2, ![10000, 5]⟩
abbrev S33000000x5 : Shape := ⟨2, ![33000000, 5]⟩
abbrev S177600x5 : Shape := ⟨2, ![177600, 5]⟩
abbrev S12000x128 : Shape := ⟨2, ![12000, 128]⟩
abbrev S1x5 : Shape := ⟨2, ![1, 5]⟩
abbrev S1x1 : Shape := ⟨2, ![1, 1]⟩
abbrev S1000000x1 : Shape := ⟨2, ![1000000, 1]⟩
abbrev S10000x1 : Shape := ⟨2, ![10000, 1]⟩

abbrev nBuf : Space → Nat
  | .hbm => 102
  | .vmem => 38
  | .smem => 0
  | _ => 0

abbrev bufTy : (tb : Table) → Fin (tcTables nBuf tb) → BufTy
  | .hbm, ⟨0, _⟩ => ⟨S1000000x5, .f32⟩
  | .hbm, ⟨1, _⟩ => ⟨S2x32000000, .i32⟩
  | .hbm, ⟨2, _⟩ => ⟨S5x5, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S5x1, .f32⟩
  | .hbm, ⟨7, _⟩ => ⟨S1, .f32⟩
  | .hbm, ⟨8, _⟩ => ⟨S1000000, .i32⟩
  | .hbm, ⟨9, _⟩ => ⟨S1x32000000, .i32⟩
  | .hbm, ⟨10, _⟩ => ⟨S32000000, .i32⟩
  | .hbm, ⟨11, _⟩ => ⟨S33000000, .i32⟩
  | .hbm, ⟨12, _⟩ => ⟨S1x32000000, .i32⟩
  | .hbm, ⟨13, _⟩ => ⟨S32000000, .i32⟩
  | .hbm, ⟨14, _⟩ => ⟨S33000000, .i32⟩
  | .hbm, ⟨15, _⟩ => ⟨S_, .f32⟩
  | .hbm, ⟨16, _⟩ => ⟨S33000000, .f32⟩
  | .hbm, ⟨17, _⟩ => ⟨S_, .f32⟩
  | .hbm, ⟨18, _⟩ => ⟨S1000000, .f32⟩
  | .hbm, ⟨19, _⟩ => ⟨S33000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .i1⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S_, .i32⟩
  | .hbm, ⟨30, _⟩ => ⟨S33000000, .i32⟩
  | .hbm, ⟨31, _⟩ => ⟨S33000000, .i1⟩
  | .hbm, ⟨32, _⟩ => ⟨S_, .i32⟩
  | .hbm, ⟨33, _⟩ => ⟨S33000000, .i32⟩
  | .hbm, ⟨34, _⟩ => ⟨S33000000, .i32⟩
  | .hbm, ⟨35, _⟩ => ⟨S33000000, .i32⟩
  | .hbm, ⟨36, _⟩ => ⟨S33000000x1, .i32⟩
  | .hbm, ⟨37, _⟩ => ⟨S33000000, .f32⟩
  | .hbm, ⟨38, _⟩ => ⟨S_, .i32⟩
  | .hbm, ⟨39, _⟩ => ⟨S33000000, .i32⟩
  | .hbm, ⟨40, _⟩ => ⟨S33000000, .i1⟩
  | .hbm, ⟨41, _⟩ => ⟨S_, .i32⟩
  | .hbm, ⟨42, _⟩ => ⟨S33000000, .i32⟩
  | .hbm, ⟨43, _⟩ => ⟨S33000000, .i32⟩
  | .hbm, ⟨44, _⟩ => ⟨S33000000, .i32⟩
  | .hbm, ⟨45, _⟩ => ⟨S33000000x1, .i32⟩
  | .hbm, ⟨46, _⟩ => ⟨S33000000, .f32⟩
  | .hbm, ⟨47, _⟩ => ⟨S33000000, .f32⟩
  | .hbm, ⟨48, _⟩ => ⟨S_, .f32⟩
  | .hbm, ⟨49, _⟩ => ⟨S177600, .f32⟩
  | .hbm, ⟨50, _⟩ => ⟨S33177600, .f32⟩
  | .hbm, ⟨51, _⟩ => ⟨S33177600x5, .f32⟩
  | .hbm, ⟨52, _⟩ => ⟨S165888000, .f32⟩
  | .hbm, ⟨53, _⟩ => ⟨S1296000x128, .f32⟩
  | .hbm, ⟨54, _⟩ => ⟨S1000000x5, .f32⟩
  | .hbm, ⟨55, _⟩ => ⟨S_, .i32⟩
  | .hbm, ⟨56, _⟩ => ⟨S33000000, .i32⟩
  | .hbm, ⟨57, _⟩ => ⟨S33000000, .i1⟩
  | .hbm, ⟨58, _⟩ => ⟨S_, .i32⟩
  | .hbm, ⟨59, _⟩ => ⟨S33000000, .i32⟩
  | .hbm, ⟨60, _⟩ => ⟨S33000000, .i32⟩
  | .hbm, ⟨61, _⟩ => ⟨S33000000, .i32⟩
  | .hbm, ⟨62, _⟩ => ⟨S33000000x1, .i32⟩
  | .hbm, ⟨63, _⟩ => ⟨S33000000x5, .f32⟩
  | .hbm, ⟨64, _⟩ => ⟨S_, .f32⟩
  | .hbm, ⟨65, _⟩ => ⟨S177600x5, .f32⟩
  | .hbm, ⟨66, _⟩ => ⟨S33177600x5, .f32⟩
  | .hbm, ⟨67, _⟩ => ⟨S1296000x128, .f32⟩
  | .hbm, ⟨68, _⟩ => ⟨S1296000x128, .f32⟩
  | .hbm, ⟨69, _⟩ => ⟨S33177600x5, .f32⟩
  | .hbm, ⟨70, _⟩ => ⟨S33000000x5, .f32⟩
  | .hbm, ⟨71, _⟩ => ⟨S_, .f32⟩
  | .hbm, ⟨72, _⟩ => ⟨S1000000x5, .f32⟩
  | .hbm, ⟨73, _⟩ => ⟨S33000000x1, .i32⟩
  | .hbm, ⟨74, _⟩ => ⟨S1000000x5, .f32⟩
  | .hbm, ⟨75, _⟩ => ⟨S1x5, .f32⟩
  | .hbm, ⟨76, _⟩ => ⟨S1000000x5, .f32⟩
  | .hbm, ⟨77, _⟩ => ⟨S1000000x5, .f32⟩
  | .hbm, ⟨78, _⟩ => ⟨S_, .i32⟩
  | .hbm, ⟨79, _⟩ => ⟨S33000000, .i32⟩
  | .hbm, ⟨80, _⟩ => ⟨S33000000, .i1⟩
  | .hbm, ⟨81, _⟩ => ⟨S_, .i32⟩
  | .hbm, ⟨82, _⟩ => ⟨S33000000, .i32⟩
  | .hbm, ⟨83, _⟩ => ⟨S33000000, .i32⟩
  | .hbm, ⟨84, _⟩ => ⟨S33000000, .i32⟩
  | .hbm, ⟨85, _⟩ => ⟨S33000000x1, .i32⟩
  | .hbm, ⟨86, _⟩ => ⟨S33000000x5, .f32⟩
  | .hbm, ⟨87, _⟩ => ⟨S_, .f32⟩
  | .hbm, ⟨88, _⟩ => ⟨S177600x5, .f32⟩
  | .hbm, ⟨89, _⟩ => ⟨S33177600x5, .f32⟩
  | .hbm, ⟨90, _⟩ => ⟨S1296000x128, .f32⟩
  | .hbm, ⟨91, _⟩ => ⟨S1296000x128, .f32⟩
  | .hbm, ⟨92, _⟩ => ⟨S33177600x5, .f32⟩
  | .hbm, ⟨93, _⟩ => ⟨S33000000x5, .f32⟩
  | .hbm, ⟨94, _⟩ => ⟨S_, .f32⟩
  | .hbm, ⟨95, _⟩ => ⟨S1000000x5, .f32⟩
  | .hbm, ⟨96, _⟩ => ⟨S33000000x1, .i32⟩
  | .hbm, ⟨97, _⟩ => ⟨S1000000x5, .f32⟩
  | .hbm, ⟨98, _⟩ => ⟨S1x5, .f32⟩
  | .hbm, ⟨99, _⟩ => ⟨S1000000x5, .f32⟩
  | .hbm, ⟨100, _⟩ => ⟨S1x1, .f32⟩
  | .hbm, ⟨101, _⟩ => ⟨S1000000x1, .f32⟩
  | .local _ .vmem, ⟨0, _⟩ => ⟨S10000x5, .f32⟩
  | .local _ .vmem, ⟨1, _⟩ => ⟨S10000x5, .f32⟩
  | .local _ .vmem, ⟨2, _⟩ => ⟨S5x5, .f32⟩
  | .local _ .vmem, ⟨3, _⟩ => ⟨S10000x5, .f32⟩
  | .local _ .vmem, ⟨4, _⟩ => ⟨S10000x5, .f32⟩
  | .local _ .vmem, ⟨5, _⟩ => ⟨S12000x128, .f32⟩
  | .local _ .vmem, ⟨6, _⟩ => ⟨S12000x128, .f32⟩
  | .local _ .vmem, ⟨7, _⟩ => ⟨S12000x128, .f32⟩
  | .local _ .vmem, ⟨8, _⟩ => ⟨S12000x128, .f32⟩
  | .local _ .vmem, ⟨9, _⟩ => ⟨S12000x128, .f32⟩
  | .local _ .vmem, ⟨10, _⟩ => ⟨S12000x128, .f32⟩
  | .local _ .vmem, ⟨11, _⟩ => ⟨S10000x5, .f32⟩
  | .local _ .vmem, ⟨12, _⟩ => ⟨S10000x5, .f32⟩
  | .local _ .vmem, ⟨13, _⟩ => ⟨S1x5, .f32⟩
  | .local _ .vmem, ⟨14, _⟩ => ⟨S10000x5, .f32⟩
  | .local _ .vmem, ⟨15, _⟩ => ⟨S10000x5, .f32⟩
  | .local _ .vmem, ⟨16, _⟩ => ⟨S10000x5, .f32⟩
  | .local _ .vmem, ⟨17, _⟩ => ⟨S10000x5, .f32⟩
  | .local _ .vmem, ⟨18, _⟩ => ⟨S5x5, .f32⟩
  | .local _ .vmem, ⟨19, _⟩ => ⟨S10000x5, .f32⟩
  | .local _ .vmem, ⟨20, _⟩ => ⟨S10000x5, .f32⟩
  | .local _ .vmem, ⟨21, _⟩ => ⟨S12000x128, .f32⟩
  | .local _ .vmem, ⟨22, _⟩ => ⟨S12000x128, .f32⟩
  | .local _ .vmem, ⟨23, _⟩ => ⟨S12000x128, .f32⟩
  | .local _ .vmem, ⟨24, _⟩ => ⟨S12000x128, .f32⟩
  | .local _ .vmem, ⟨25, _⟩ => ⟨S12000x128, .f32⟩
  | .local _ .vmem, ⟨26, _⟩ => ⟨S12000x128, .f32⟩
  | .local _ .vmem, ⟨27, _⟩ => ⟨S10000x5, .f32⟩
  | .local _ .vmem, ⟨28, _⟩ => ⟨S10000x5, .f32⟩
  | .local _ .vmem, ⟨29, _⟩ => ⟨S1x5, .f32⟩
  | .local _ .vmem, ⟨30, _⟩ => ⟨S10000x5, .f32⟩
  | .local _ .vmem, ⟨31, _⟩ => ⟨S10000x5, .f32⟩
  | .local _ .vmem, ⟨32, _⟩ => ⟨S10000x5, .f32⟩
  | .local _ .vmem, ⟨33, _⟩ => ⟨S10000x5, .f32⟩
  | .local _ .vmem, ⟨34, _⟩ => ⟨S5x1, .f32⟩
  | .local _ .vmem, ⟨35, _⟩ => ⟨S1x1, .f32⟩
  | .local _ .vmem, ⟨36, _⟩ => ⟨S10000x1, .f32⟩
  | .local _ .vmem, ⟨37, _⟩ => ⟨S10000x1, .f32⟩
  | _, _ => ⟨S1000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![108], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S5x5 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![108], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x5 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x5 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x5 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x5 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S5x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S_S177600 : S_.BroadcastsInDim S177600 (![] : Fin 0 → Fin S177600.rank)
  concatenates_S33000000_S177600_S33177600_d0 : Shape.Concatenates [S33000000, S177600] S33177600 0
  bcast_S33177600_S33177600x5_0 : S33177600.BroadcastsInDim S33177600x5 (![0] : Fin 1 → Fin S33177600x5.rank)
  shapeCasts_S33177600x5_S165888000 : S33177600x5.ShapeCasts S165888000
  shapeCasts_S165888000_S1296000x128 : S165888000.ShapeCasts S1296000x128
  inb_S10000x5_S10000x5_0_0 : ∀ a, (![0, 0] : Fin 2 → Nat) a + S10000x5.size a ≤ S10000x5.size a
  h_S10000x5 : 0 < S10000x5.numel
  inb_S5x5_S5x5_0_0 : ∀ a, (![0, 0] : Fin 2 → Nat) a + S5x5.size a ≤ S5x5.size a
  h_S5x5 : 0 < S5x5.numel
  bcast_S_S177600x5 : S_.BroadcastsInDim S177600x5 (![] : Fin 0 → Fin S177600x5.rank)
  concatenates_S33000000x5_S177600x5_S33177600x5_d0 : Shape.Concatenates [S33000000x5, S177600x5] S33177600x5 0
  shapeCasts_S33177600x5_S1296000x128 : S33177600x5.ShapeCasts S1296000x128
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  shapeCasts_S1296000x128_S33177600x5 : S1296000x128.ShapeCasts S33177600x5
  slices_S33177600x5_S33000000x5_0_0 : S33177600x5.Slices ![0, 0] S33000000x5
  bcast_S_S1000000x5 : S_.BroadcastsInDim S1000000x5 (![] : Fin 0 → Fin S1000000x5.rank)
  shapeCasts_S5_S1x5 : S5.ShapeCasts S1x5
  shapeCasts_S10000x5_S10000x5 : S10000x5.ShapeCasts S10000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  shapeCasts_S1_S1x1 : S1.ShapeCasts S1x1
  inb_S5x1_S5x1_0_0 : ∀ a, (![0, 0] : Fin 2 → Nat) a + S5x1.size a ≤ S5x1.size a
  h_S5x1 : 0 < S5x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S1000000_S33000000x1_S33000000_n_0_0_1_wf : ScatterDims.WF S1000000 S33000000x1 S33000000 [] [0] [0] 1
  gather_S1000000_S33000000x1_S33000000_n_0_n_n_0_1_1_wf : GatherDims.WF S1000000 S33000000x1 S33000000 [] [0] [] [0] [] 1 ![1]
  dot_S10000x5_S5x5_S10000x5_1_0_0_1_n_n_wf : DotDims.WF S10000x5 S5x5 S10000x5 [1] [0] [0] [1] [] []
  gather_S1000000x5_S33000000x1_S33000000x5_1_0_n_n_0_1_15_wf : GatherDims.WF S1000000x5 S33000000x1 S33000000x5 [1] [0] [] [0] [] 1 ![1, 5]
  scatter_S1000000x5_S33000000x1_S33000000x5_1_0_0_1_wf : ScatterDims.WF S1000000x5 S33000000x1 S33000000x5 [1] [0] [0] 1
  dot_S10000x5_S5x1_S10000x1_1_0_0_1_n_n_wf : DotDims.WF S10000x5 S5x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S1000000x5.size a
  hwx0_0 : ∀ i : grid0.Coords, EltTy.bits .f32 = 32 ∨ (Rect.block (s := S1000000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x5.size a ≤ S1000000x5.size a
  hwx0_2 : ∀ i : grid0.Coords, EltTy.bits .f32 = 32 ∨ (Rect.block (s := S1000000x5) S10000x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x128.size a ≤ S1296000x128.size a
  hwx1_0 : ∀ i : grid1.Coords, EltTy.bits .f32 = 32 ∨ (Rect.block (s := S1296000x128) S12000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x128.size a ≤ S1296000x128.size a
  hwx1_1 : ∀ i : grid1.Coords, EltTy.bits .f32 = 32 ∨ (Rect.block (s := S1296000x128) S12000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x128.size a ≤ S1296000x128.size a
  hwx1_2 : ∀ i : grid1.Coords, EltTy.bits .f32 = 32 ∨ (Rect.block (s := S1296000x128) S12000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x5.size a ≤ S1000000x5.size a
  hwx2_0 : ∀ i : grid2.Coords, EltTy.bits .f32 = 32 ∨ (Rect.block (s := S1000000x5) S10000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x5.size a ≤ S1x5.size a
  hwx2_1 : ∀ i : grid2.Coords, EltTy.bits .f32 = 32 ∨ (Rect.block (s := S1x5) S1x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x5.size a ≤ S1000000x5.size a
  hwx2_2 : ∀ i : grid2.Coords, EltTy.bits .f32 = 32 ∨ (Rect.block (s := S1000000x5) S10000x5.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x5.size a ≤ S1000000x5.size a
  hwx3_0 : ∀ i : grid3.Coords, EltTy.bits .f32 = 32 ∨ (Rect.block (s := S1000000x5) S10000x5.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S5x5.size a ≤ S5x5.size a
  hwx3_1 : ∀ i : grid3.Coords, EltTy.bits .f32 = 32 ∨ (Rect.block (s := S5x5) S5x5.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x5.size a ≤ S1000000x5.size a
  hwx3_2 : ∀ i : grid3.Coords, EltTy.bits .f32 = 32 ∨ (Rect.block (s := S1000000x5) S10000x5.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12000x128.size a ≤ S1296000x128.size a
  hwx4_0 : ∀ i : grid4.Coords, EltTy.bits .f32 = 32 ∨ (Rect.block (s := S1296000x128) S12000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12000x128.size a ≤ S1296000x128.size a
  hwx4_1 : ∀ i : grid4.Coords, EltTy.bits .f32 = 32 ∨ (Rect.block (s := S1296000x128) S12000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S12000x128.size a ≤ S1296000x128.size a
  hwx4_2 : ∀ i : grid4.Coords, EltTy.bits .f32 = 32 ∨ (Rect.block (s := S1296000x128) S12000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x5.size a ≤ S1000000x5.size a
  hwx5_0 : ∀ i : grid5.Coords, EltTy.bits .f32 = 32 ∨ (Rect.block (s := S1000000x5) S10000x5.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x5.size a ≤ S1x5.size a
  hwx5_1 : ∀ i : grid5.Coords, EltTy.bits .f32 = 32 ∨ (Rect.block (s := S1x5) S1x5.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x5.size a ≤ S1000000x5.size a
  hwx5_2 : ∀ i : grid5.Coords, EltTy.bits .f32 = 32 ∨ (Rect.block (s := S1000000x5) S10000x5.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x5.size a ≤ S1000000x5.size a
  hwx6_0 : ∀ i : grid6.Coords, EltTy.bits .f32 = 32 ∨ (Rect.block (s := S1000000x5) S10000x5.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S5x1.size a ≤ S5x1.size a
  hwx6_1 : ∀ i : grid6.Coords, EltTy.bits .f32 = 32 ∨ (Rect.block (s := S5x1) S5x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x1.size a ≤ S1000000x1.size a
  hwx6_3 : ∀ i : grid6.Coords, EltTy.bits .f32 = 32 ∨ (Rect.block (s := S1000000x1) S10000x1.size (cc6_transform_3 i) (hinb6_3 i)).WholeWords (EltTy.packing .f32)

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def dot_S10000x5_S5x5_S10000x5_1_0_0_1_n_n : DotDims S10000x5 S5x5 S10000x5 where
  lhsContracting := [1]
  rhsContracting := [0]
  lhsNonContracting := [0]
  rhsNonContracting := [1]
  lhsBatch := []
  rhsBatch := []
  wf := dot_S10000x5_S5x5_S10000x5_1_0_0_1_n_n_wf
def gather_S1000000x5_S33000000x1_S33000000x5_1_0_n_n_0_1_15 : GatherDims S1000000x5 S33000000x1 S33000000x5 where
  offsetDims := [1]
  collapsedSliceDims := [0]
  operandBatchingDims := []
  startIndicesBatchingDims := []
  startIndexMap := [0]
  indexVectorDim := 1
  sliceSizes := ![1, 5]
  wf := gather_S1000000x5_S33000000x1_S33000000x5_1_0_n_n_0_1_15_wf
def scatter_S1000000x5_S33000000x1_S33000000x5_1_0_0_1 : ScatterDims S1000000x5 S33000000x1 S33000000x5 where
  updateWindowDims := [1]
  insertedWindowDims := [0]
  scatterDimsToOperandDims := [0]
  indexVectorDim := 1
  wf := scatter_S1000000x5_S33000000x1_S33000000x5_1_0_0_1_wf
def dot_S10000x5_S5x1_S10000x1_1_0_0_1_n_n : DotDims S10000x5 S5x1 S10000x1 where
  lhsContracting := [1]
  rhsContracting := [0]
  lhsNonContracting := [0]
  rhsNonContracting := [1]
  lhsBatch := []
  rhsBatch := []
  wf := dot_S10000x5_S5x1_S10000x1_1_0_0_1_n_n_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S12000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S12000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S12000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S10000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x5.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S10000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S5x5.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S10000x5.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S12000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S12000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S12000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S10000x5.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x5.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S10000x5.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v72) S10000x5.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S5x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v74) S10000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S1000000x5 : Shape := ⟨2, ![1000000, 5]⟩
abbrev S2x32000000 : Shape := ⟨2, ![2, 32000000]⟩
abbrev S5x5 : Shape := ⟨2, ![5, 5]⟩
abbrev S5 : Shape := ⟨1, ![5]⟩
abbrev S5x1 : Shape := ⟨2, ![5, 1]⟩
abbrev S1 : Shape := ⟨1, ![1]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S33000000x5 : Shape := ⟨2, ![33000000, 5]⟩
abbrev S1x5 : Shape := ⟨2, ![1, 5]⟩
abbrev S1000000x1 : Shape := ⟨2, ![1000000, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S1000000x5, .f32⟩
  | .hbm, ⟨1, _⟩ => ⟨S2x32000000, .i32⟩
  | .hbm, ⟨2, _⟩ => ⟨S5x5, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S5x1, .f32⟩
  | .hbm, ⟨7, _⟩ => ⟨S1, .f32⟩
  | .hbm, ⟨8, _⟩ => ⟨S1000000, .i32⟩
  | .hbm, ⟨9, _⟩ => ⟨S1x32000000, .i32⟩
  | .hbm, ⟨10, _⟩ => ⟨S32000000, .i32⟩
  | .hbm, ⟨11, _⟩ => ⟨S33000000, .i32⟩
  | .hbm, ⟨12, _⟩ => ⟨S1x32000000, .i32⟩
  | .hbm, ⟨13, _⟩ => ⟨S32000000, .i32⟩
  | .hbm, ⟨14, _⟩ => ⟨S33000000, .i32⟩
  | .hbm, ⟨15, _⟩ => ⟨S_, .f32⟩
  | .hbm, ⟨16, _⟩ => ⟨S33000000, .f32⟩
  | .hbm, ⟨17, _⟩ => ⟨S_, .f32⟩
  | .hbm, ⟨18, _⟩ => ⟨S1000000, .f32⟩
  | .hbm, ⟨19, _⟩ => ⟨S33000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .i1⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S1000000x5, .f32⟩
  | .hbm, ⟨30, _⟩ => ⟨S_, .i32⟩
  | .hbm, ⟨31, _⟩ => ⟨S33000000, .i32⟩
  | .hbm, ⟨32, _⟩ => ⟨S33000000, .i1⟩
  | .hbm, ⟨33, _⟩ => ⟨S_, .i32⟩
  | .hbm, ⟨34, _⟩ => ⟨S33000000, .i32⟩
  | .hbm, ⟨35, _⟩ => ⟨S33000000, .i32⟩
  | .hbm, ⟨36, _⟩ => ⟨S33000000, .i32⟩
  | .hbm, ⟨37, _⟩ => ⟨S33000000x1, .i32⟩
  | .hbm, ⟨38, _⟩ => ⟨S33000000, .f32⟩
  | .hbm, ⟨39, _⟩ => ⟨S_, .i32⟩
  | .hbm, ⟨40, _⟩ => ⟨S33000000, .i32⟩
  | .hbm, ⟨41, _⟩ => ⟨S33000000, .i1⟩
  | .hbm, ⟨42, _⟩ => ⟨S_, .i32⟩
  | .hbm, ⟨43, _⟩ => ⟨S33000000, .i32⟩
  | .hbm, ⟨44, _⟩ => ⟨S33000000, .i32⟩
  | .hbm, ⟨45, _⟩ => ⟨S33000000, .i32⟩
  | .hbm, ⟨46, _⟩ => ⟨S33000000x1, .i32⟩
  | .hbm, ⟨47, _⟩ => ⟨S33000000, .f32⟩
  | .hbm, ⟨48, _⟩ => ⟨S33000000, .f32⟩
  | .hbm, ⟨49, _⟩ => ⟨S_, .i32⟩
  | .hbm, ⟨50, _⟩ => ⟨S33000000, .i32⟩
  | .hbm, ⟨51, _⟩ => ⟨S33000000, .i1⟩
  | .hbm, ⟨52, _⟩ => ⟨S_, .i32⟩
  | .hbm, ⟨53, _⟩ => ⟨S33000000, .i32⟩
  | .hbm, ⟨54, _⟩ => ⟨S33000000, .i32⟩
  | .hbm, ⟨55, _⟩ => ⟨S33000000, .i32⟩
  | .hbm, ⟨56, _⟩ => ⟨S33000000x1, .i32⟩
  | .hbm, ⟨57, _⟩ => ⟨S33000000x5, .f32⟩
  | .hbm, ⟨58, _⟩ => ⟨S33000000x1, .f32⟩
  | .hbm, ⟨59, _⟩ => ⟨S33000000x5, .f32⟩
  | .hbm, ⟨60, _⟩ => ⟨S33000000x5, .f32⟩
  | .hbm, ⟨61, _⟩ => ⟨S_, .f32⟩
  | .hbm, ⟨62, _⟩ => ⟨S1000000x5, .f32⟩
  | .hbm, ⟨63, _⟩ => ⟨S33000000x1, .i32⟩
  | .hbm, ⟨64, _⟩ => ⟨S1000000x5, .f32⟩
  | .hbm, ⟨65, _⟩ => ⟨S1x5, .f32⟩
  | .hbm, ⟨66, _⟩ => ⟨S1000000x5, .f32⟩
  | .hbm, ⟨67, _⟩ => ⟨S1000000x5, .f32⟩
  | .hbm, ⟨68, _⟩ => ⟨S_, .f32⟩
  | .hbm, ⟨69, _⟩ => ⟨S1000000x5, .f32⟩
  | .hbm, ⟨70, _⟩ => ⟨S1000000x5, .f32⟩
  | .hbm, ⟨71, _⟩ => ⟨S1000000x5, .f32⟩
  | .hbm, ⟨72, _⟩ => ⟨S_, .i32⟩
  | .hbm, ⟨73, _⟩ => ⟨S33000000, .i32⟩
  | .hbm, ⟨74, _⟩ => ⟨S33000000, .i1⟩
  | .hbm, ⟨75, _⟩ => ⟨S_, .i32⟩
  | .hbm, ⟨76, _⟩ => ⟨S33000000, .i32⟩
  | .hbm, ⟨77, _⟩ => ⟨S33000000, .i32⟩
  | .hbm, ⟨78, _⟩ => ⟨S33000000, .i32⟩
  | .hbm, ⟨79, _⟩ => ⟨S33000000x1, .i32⟩
  | .hbm, ⟨80, _⟩ => ⟨S33000000, .f32⟩
  | .hbm, ⟨81, _⟩ => ⟨S_, .i32⟩
  | .hbm, ⟨82, _⟩ => ⟨S33000000, .i32⟩
  | .hbm, ⟨83, _⟩ => ⟨S33000000, .i1⟩
  | .hbm, ⟨84, _⟩ => ⟨S_, .i32⟩
  | .hbm, ⟨85, _⟩ => ⟨S33000000, .i32⟩
  | .hbm, ⟨86, _⟩ => ⟨S33000000, .i32⟩
  | .hbm, ⟨87, _⟩ => ⟨S33000000, .i32⟩
  | .hbm, ⟨88, _⟩ => ⟨S33000000x1, .i32⟩
  | .hbm, ⟨89, _⟩ => ⟨S33000000, .f32⟩
  | .hbm, ⟨90, _⟩ => ⟨S33000000, .f32⟩
  | .hbm, ⟨91, _⟩ => ⟨S_, .i32⟩
  | .hbm, ⟨92, _⟩ => ⟨S33000000, .i32⟩
  | .hbm, ⟨93, _⟩ => ⟨S33000000, .i1⟩
  | .hbm, ⟨94, _⟩ => ⟨S_, .i32⟩
  | .hbm, ⟨95, _⟩ => ⟨S33000000, .i32⟩
  | .hbm, ⟨96, _⟩ => ⟨S33000000, .i32⟩
  | .hbm, ⟨97, _⟩ => ⟨S33000000, .i32⟩
  | .hbm, ⟨98, _⟩ => ⟨S33000000x1, .i32⟩
  | .hbm, ⟨99, _⟩ => ⟨S33000000x5, .f32⟩
  | .hbm, ⟨100, _⟩ => ⟨S33000000x1, .f32⟩
  | .hbm, ⟨101, _⟩ => ⟨S33000000x5, .f32⟩
  | .hbm, ⟨102, _⟩ => ⟨S33000000x5, .f32⟩
  | .hbm, ⟨103, _⟩ => ⟨S_, .f32⟩
  | .hbm, ⟨104, _⟩ => ⟨S1000000x5, .f32⟩
  | .hbm, ⟨105, _⟩ => ⟨S33000000x1, .i32⟩
  | .hbm, ⟨106, _⟩ => ⟨S1000000x5, .f32⟩
  | .hbm, ⟨107, _⟩ => ⟨S1x5, .f32⟩
  | .hbm, ⟨108, _⟩ => ⟨S1000000x5, .f32⟩
  | .hbm, ⟨109, _⟩ => ⟨S1000000x5, .f32⟩
  | .hbm, ⟨110, _⟩ => ⟨S_, .f32⟩
  | .hbm, ⟨111, _⟩ => ⟨S1000000x5, .f32⟩
  | .hbm, ⟨112, _⟩ => ⟨S1000000x5, .f32⟩
  | .hbm, ⟨113, _⟩ => ⟨S1000000x1, .f32⟩
  | .hbm, ⟨114, _⟩ => ⟨S1x1, .f32⟩
  | .hbm, ⟨115, _⟩ => ⟨S1000000x1, .f32⟩
  | .hbm, ⟨116, _⟩ => ⟨S1000000x1, .f32⟩
  | _, _ => ⟨S1000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S33000000x1_S33000000x5_0_1 : S33000000x1.BroadcastsInDim S33000000x5 (![0, 1] : Fin 2 → Fin S33000000x5.rank)
  bcast_S_S1000000x5 : S_.BroadcastsInDim S1000000x5 (![] : Fin 0 → Fin S1000000x5.rank)
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S33000000x1_S33000000_n_0_0_1_wf : ScatterDims.WF S1000000 S33000000x1 S33000000 [] [0] [0] 1
  dot_S1000000x5_S5x5_S1000000x5_1_0_0_1_n_n_wf : DotDims.WF S1000000x5 S5x5 S1000000x5 [1] [0] [0] [1] [] []
  gather_S1000000_S33000000x1_S33000000_n_0_n_n_0_1_1_wf : GatherDims.WF S1000000 S33000000x1 S33000000 [] [0] [] [0] [] 1 ![1]
  gather_S1000000x5_S33000000x1_S33000000x5_1_0_n_n_0_1_15_wf : GatherDims.WF S1000000x5 S33000000x1 S33000000x5 [1] [0] [] [0] [] 1 ![1, 5]
  scatter_S1000000x5_S33000000x1_S33000000x5_1_0_0_1_wf : ScatterDims.WF S1000000x5 S33000000x1 S33000000x5 [1] [0] [0] 1
  dot_S1000000x5_S5x1_S1000000x1_1_0_0_1_n_n_wf : DotDims.WF S1000000x5 S5x1 S1000000x1 [1] [0] [0] [1] [] []

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def dot_S1000000x5_S5x5_S1000000x5_1_0_0_1_n_n : DotDims S1000000x5 S5x5 S1000000x5 where
  lhsContracting := [1]
  rhsContracting := [0]
  lhsNonContracting := [0]
  rhsNonContracting := [1]
  lhsBatch := []
  rhsBatch := []
  wf := dot_S1000000x5_S5x5_S1000000x5_1_0_0_1_n_n_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def gather_S1000000x5_S33000000x1_S33000000x5_1_0_n_n_0_1_15 : GatherDims S1000000x5 S33000000x1 S33000000x5 where
  offsetDims := [1]
  collapsedSliceDims := [0]
  operandBatchingDims := []
  startIndicesBatchingDims := []
  startIndexMap := [0]
  indexVectorDim := 1
  sliceSizes := ![1, 5]
  wf := gather_S1000000x5_S33000000x1_S33000000x5_1_0_n_n_0_1_15_wf
def scatter_S1000000x5_S33000000x1_S33000000x5_1_0_0_1 : ScatterDims S1000000x5 S33000000x1 S33000000x5 where
  updateWindowDims := [1]
  insertedWindowDims := [0]
  scatterDimsToOperandDims := [0]
  indexVectorDim := 1
  wf := scatter_S1000000x5_S33000000x1_S33000000x5_1_0_0_1_wf
def dot_S1000000x5_S5x1_S1000000x1_1_0_0_1_n_n : DotDims S1000000x5 S5x1 S1000000x1 where
  lhsContracting := [1]
  rhsContracting := [0]
  lhsNonContracting := [0]
  rhsNonContracting := [1]
  lhsBatch := []
  rhsBatch := []
  wf := dot_S1000000x5_S5x1_S1000000x1_1_0_0_1_n_n_wf

class Facts : Prop extends Facts₀ where

variable [Facts]
-- ==== Proof.Spec.lean ====
/-
  Two graph-convolution layers and a linear head, as functions of the argument arrays, index by index, over
  the extended reals.

  With `src`, `dst` the edge lists with the self loops appended, `deg` the in-degree and
  `norm e = deg(src e)^(-1/2) · deg(dst e)^(-1/2)`, one layer is
      h' = relu ( scatter_add over dst of ( (h · W)[src e, :] · norm e ) + b ),
  and the head is `h · Wl + bl`. The gather of the rows `src e`, the scatter-add over `dst` and the edge weights
  `norm` are shared by the two programs and stay abstract here: `gat`, `sca`, `nrm`.
-/
import Idealize.ShloMosaic.PureOps.Ideal
import Idealize.ShloMosaic.Lib.ValueIdx

noncomputable section

namespace Cert.Gcn

open Idealize.ShloMosaic Idealize.ShloMosaic.ValueIdx

/-- node features, `[1000000, 5]` -/
abbrev SN5 : Shape := ⟨2, ![1000000, 5]⟩
/-- per-edge messages, `[33000000, 5]` -/
abbrev SE5 : Shape := ⟨2, ![33000000, 5]⟩
/-- per-edge weights, `[33000000]` -/
abbrev SE : Shape := ⟨1, ![33000000]⟩
abbrev SW : Shape := ⟨2, ![5, 5]⟩
abbrev SB : Shape := ⟨1, ![5]⟩
abbrev SWl : Shape := ⟨2, ![5, 1]⟩
abbrev SBl : Shape := ⟨1, ![1]⟩
abbrev SN1 : Shape := ⟨2, ![1000000, 1]⟩

/-- The dense transform: `(x · w)[n, j] = Σ_k x[n, k] · w[k, j]`. -/
def lin (x : FVec Ideal SN5 .f32) (w : FVec Ideal SW .f32) : FVec Ideal SN5 .f32 :=
  fun i => ∑ k : Fin 5, x (ix2 (i 0) k) * w (ix2 k (i 1))

/-- A gathered row scaled by its edge's weight: `g[e, j] · n[e]`. -/
def scale (g : FVec Ideal SE5 .f32) (n : FVec Ideal SE .f32) : FVec Ideal SE5 .f32 :=
  fun i => g i * n (ix1 (i 0))

/-- Bias, then the positive part: `max (a[n, j] + b[j]) 0` (the zero as the float word both programs print). -/
def biasRelu (a : FVec Ideal SN5 .f32) (b : FVec Ideal SB .f32) : FVec Ideal SN5 .f32 :=
  fun i => max (a i + b (ix1 (i 1))) (Ideal.ofBits .f32 0x00000000#32)

/-- The head: `(h · wl)[n, 0] + bl[0]`. -/
def head (h : FVec Ideal SN5 .f32) (wl : FVec Ideal SWl .f32) (bl : FVec Ideal SBl .f32) : FVec Ideal SN1 .f32 :=
  fun i => (∑ k : Fin 5, h (ix2 (i 0) k) * wl (ix2 k (i 1))) + bl (ix1 0)

/-- `biasRelu` with the bias laid as one row `[1, 5]`. -/
def biasRelu2 (a : FVec Ideal SN5 .f32) (b : FVec Ideal ⟨2, ![1, 5]⟩ .f32) : FVec Ideal SN5 .f32 :=
  fun i => max (a i + b (ix2 0 (i 1))) (Ideal.ofBits .f32 0x00000000#32)

/-- `head` with the bias laid as `[1, 1]`. -/
def head2 (h : FVec Ideal SN5 .f32) (wl : FVec Ideal SWl .f32) (bl : FVec Ideal ⟨2, ![1, 1]⟩ .f32) : FVec Ideal SN1 .f32 :=
  fun i => (∑ k : Fin 5, h (ix2 (i 0) k) * wl (ix2 k (i 1))) + bl (ix2 0 0)

/-- per-edge rows with the padding rows, `[33177600, 5]`, and the same laid 128 to a row -/
abbrev SEp5 : Shape := ⟨2, ![33177600, 5]⟩
abbrev SEp : Shape := ⟨1, ![33177600]⟩
abbrev SPad5 : Shape := ⟨2, ![177600, 5]⟩
abbrev SPad : Shape := ⟨1, ![177600]⟩
abbrev SFlat1 : Shape := ⟨1, ![165888000]⟩
abbrev SFlat : Shape := ⟨2, ![1296000, 128]⟩

/-- One layer over an abstract gather `gat`, scatter-add `sca` and edge weights `nrm`. -/
def layer (gat : FVec Ideal SN5 .f32 → FVec Ideal SE5 .f32) (sca : FVec Ideal SE5 .f32 → FVec Ideal SN5 .f32)
    (nrm : FVec Ideal SE .f32) (h : FVec Ideal SN5 .f32) (w : FVec Ideal SW .f32) (b : FVec Ideal SB .f32) :
    FVec Ideal SN5 .f32 :=
  biasRelu (sca (scale (gat (lin h w)) nrm)) b

/-- The whole network. -/
def out (gat : FVec Ideal SN5 .f32 → FVec Ideal SE5 .f32) (sca : FVec Ideal SE5 .f32 → FVec Ideal SN5 .f32)
    (nrm : FVec Ideal SE .f32) (x : FVec Ideal SN5 .f32) (w1 : FVec Ideal SW .f32) (b1 : FVec Ideal SB .f32)
    (w2 : FVec Ideal SW .f32) (b2 : FVec Ideal SB .f32) (wl : FVec Ideal SWl .f32) (bl : FVec Ideal SBl .f32) :
    FVec Ideal SN1 .f32 :=
  head (layer gat sca nrm (layer gat sca nrm x w1 b1) w2 b2) wl bl

end Cert.Gcn

end
-- ==== Proof.KDefs.lean ====
/-
  The host-side pieces of the kernel's program, as functions of the edge list: the edge endpoints with the self
  loops appended (`src`, `dst`), a negative index wrapped once and laid as a column of start indices (`wrap`),
  the in-degree's inverse square root (`dis`), the per-edge weight `nrm e = dis (src e) · dis (dst e)`, the row gather
  `gat` and the scatter-add `sca`; and the two re-layouts around the elementwise product: the per-edge rows padded
  with zero rows and flattened to 128 lanes (`flat5`, `nrmFlat`), and back (`unflat`).
  `Live` lists what every later segment of the program still reads, at the values it must hold.
-/
import proofs.«123905_j21114059227766_1_alg».proof.Proof.Gen.KernelIdeal
import proofs.«123905_j21114059227766_1_alg».proof.Proof.Spec

noncomputable section

namespace Cert.KernelIdeal.K

open Cert.KernelIdeal Idealize.ShloMosaic Idealize.ShloMosaic.TcCoe
open Cert.KernelIdeal.Facts₀ Cert.KernelIdeal.Facts

/-- The edge list `[2, 32000000]`. -/
abbrev EI : Type := (⟨S2x32000000, .i32⟩ : BufTy).Contents (Elt Ideal)
abbrev IE : Type := (⟨S33000000, .i32⟩ : BufTy).Contents (Elt Ideal)
abbrev IE1 : Type := (⟨S33000000x1, .i32⟩ : BufTy).Contents (Elt Ideal)

/-- Row 0 of the edge list, then the self loops `0 … N-1`. -/
def src (ei : EI) : IE :=
  concatenate S33000000 0 [⟨S32000000, (shapeCast S32000000 (extractStridedSlice S1x32000000 ![0, 0] ei slices_S2x32000000_S1x32000000_0_0) shapeCasts_S1x32000000_S32000000)⟩, ⟨S1000000, (iotaInDim S1000000 32 0)⟩] concatenates_S32000000_S1000000_S33000000_d0

/-- Row 1 of the edge list, then the self loops. -/
def dst (ei : EI) : IE :=
  concatenate S33000000 0 [⟨S32000000, (shapeCast S32000000 (extractStridedSlice S1x32000000 ![1, 0] ei slices_S2x32000000_S1x32000000_1_0) shapeCasts_S1x32000000_S32000000)⟩, ⟨S1000000, (iotaInDim S1000000 32 0)⟩] concatenates_S32000000_S1000000_S33000000_d0

/-- A negative index moved up by the number of nodes, as a column of start indices. -/
def wrap (v : IE) : IE1 :=
  broadcastInDim S33000000x1 ![0] bcast_S33000000_S33000000x1_0
    (select (cmpi .slt v (broadcastInDim S33000000 ![] bcast_S_S33000000 (constantI S_ 32 0#32)))
      (addi v (broadcastInDim S33000000 ![] bcast_S_S33000000 (constantI S_ 32 1000000#32))) v)

/-- The in-degree: ones scattered over `dst`. -/
def deg (ei : EI) : FVec Ideal S1000000 .f32 :=
  Host.scatterAdd scatter_S1000000_S33000000x1_S33000000_n_0_0_1
    (broadcastInDim S1000000 ![] bcast_S_S1000000 (constant (F := Ideal) S_ .f32 0x00000000#32))
    (broadcastInDim S33000000x1 ![0] bcast_S33000000_S33000000x1_0 (dst ei))
    (broadcastInDim S33000000 ![] bcast_S_S33000000 (constant (F := Ideal) S_ .f32 0x3F800000#32))

/-- `deg^(-1/2)` where the degree is positive, zero elsewhere. -/
def dis (ei : EI) : FVec Ideal S1000000 .f32 :=
  select (cmpf .ogt (deg ei) (broadcastInDim S1000000 ![] bcast_S_S1000000 (constant (F := Ideal) S_ .f32 0x00000000#32)))
    (Host.rsqrt (deg ei))
    (broadcastInDim S1000000 ![] bcast_S_S1000000 (id (constant (F := Ideal) S_ .f32 0x00000000#32)))

/-- The edge weights `dis (src e) · dis (dst e)`. -/
def nrm (ei : EI) : FVec Ideal S33000000 .f32 :=
  mulf (Host.gather gather_S1000000_S33000000x1_S33000000_n_0_n_n_0_1_1 (dis ei) (wrap (src ei)))
    (Host.gather gather_S1000000_S33000000x1_S33000000_n_0_n_n_0_1_1 (dis ei) (wrap (dst ei)))

/-- The rows `src e` of a node array. -/
def gat (ei : EI) (z : FVec Ideal S1000000x5 .f32) : FVec Ideal S33000000x5 .f32 :=
  Host.gather gather_S1000000x5_S33000000x1_S33000000x5_1_0_n_n_0_1_15 z (wrap (src ei))

/-- Per-edge rows summed into the rows `dst e` of a zero node array. -/
def sca (ei : EI) (u : FVec Ideal S33000000x5 .f32) : FVec Ideal S1000000x5 .f32 :=
  Host.scatterAdd scatter_S1000000x5_S33000000x1_S33000000x5_1_0_0_1
    (broadcastInDim S1000000x5 ![] bcast_S_S1000000x5 (constant (F := Ideal) S_ .f32 0x00000000#32))
    (broadcastInDim S33000000x1 ![0] bcast_S33000000_S33000000x1_0 (dst ei)) u

/-- Per-edge rows, 177600 zero rows appended, laid 128 to a row. -/
def flat5 (g : FVec Ideal S33000000x5 .f32) : FVec Ideal S1296000x128 .f32 :=
  shapeCast S1296000x128 (concatenate S33177600x5 0 [⟨S33000000x5, g⟩, ⟨S177600x5, (broadcastInDim S177600x5 ![] bcast_S_S177600x5 (constant (F := Ideal) S_ .f32 0x00000000#32))⟩] concatenates_S33000000x5_S177600x5_S33177600x5_d0) shapeCasts_S33177600x5_S1296000x128

/-- The edge weights, 177600 zeros appended, each repeated five times, laid 128 to a row. -/
def nrmFlat (n : FVec Ideal S33000000 .f32) : FVec Ideal S1296000x128 .f32 :=
  shapeCast S1296000x128 (shapeCast S165888000 (broadcastInDim S33177600x5 ![0] bcast_S33177600_S33177600x5_0 (concatenate S33177600 0 [⟨S33000000, n⟩, ⟨S177600, (broadcastInDim S177600 ![] bcast_S_S177600 (constant (F := Ideal) S_ .f32 0x00000000#32))⟩] concatenates_S33000000_S177600_S33177600_d0)) shapeCasts_S33177600x5_S165888000) shapeCasts_S165888000_S1296000x128

/-- Back to per-edge rows, the padding rows dropped. -/
def unflat (u : FVec Ideal S1296000x128 .f32) : FVec Ideal S33000000x5 .f32 :=
  extractStridedSlice S33000000x5 ![0, 0] (shapeCast S33177600x5 u shapeCasts_S1296000x128_S33177600x5) slices_S33177600x5_S33000000x5_0_0

variable (m : (ℓ : Loc nD τ sig) → Buf (Elt Ideal) ℓ) (c : Dev nD)

/-- The edge list as launched. -/
abbrev ei : EI := m ((c.tc : Thread nD τ).loc main_arg1)

/-- What every later segment still reads of a boundary's contents `W`: the edge endpoints, the flattened weights, and
    the arguments not yet consumed, each at its value. -/
structure Live (W : Valuation τ sig (Elt Ideal)) : Prop where
  v3 : W (Proc.devRef .tc main_v3) = src (ei m c)
  v6 : W (Proc.devRef .tc main_v6) = dst (ei m c)
  v34 : W (Proc.devRef .tc main_v34) = nrmFlat (nrm (ei m c))
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)

end Cert.KernelIdeal.K

end
-- ==== Proof.RegionT0.lean ====
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The dense transform of region 0: out[n, j] = Σ_k x[n, k] · w[k, j] over the extended reals, for
  x = main_arg0 : [1000000, 5] and w = main_arg2 : [5, 5], written to main_v35 : [1000000, 5].

  The grid has 100 points. Point t stages rows 10000·t … 10000·t + 9999 of x (all five columns) and the whole
  of w, multiplies the row block by w into a zero accumulator, and writes the product back as rows
  10000·t … 10000·t + 9999 of the output. Row r of the output therefore comes from point r / 10000, and its
  entry in column j is the sum over the five contracted columns: a row of a product depends on that row of x only.
-/

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-! ## The product at an index -/

/-- The product's dimension numbers, axis by axis: the left operand is read at (row, contraction position), the
    right operand at (contraction position, column). -/
theorem lhs_row_T0 (j : S10000x5.Idx) (k : dot_S10000x5_S5x5_S10000x5_1_0_0_1_n_n.contr.Idx) :
    (dot_S10000x5_S5x5_S10000x5_1_0_0_1_n_n.lhsIdx j k 0 : ℕ) = j 0 := by
  simp [DotDims.lhsIdx, dot_S10000x5_S5x5_S10000x5_1_0_0_1_n_n]; rfl
theorem lhs_con_T0 (j : S10000x5.Idx) (k : dot_S10000x5_S5x5_S10000x5_1_0_0_1_n_n.contr.Idx) :
    (dot_S10000x5_S5x5_S10000x5_1_0_0_1_n_n.lhsIdx j k 1 : ℕ) = k ⟨0, by decide⟩ :=
  dot_S10000x5_S5x5_S10000x5_1_0_0_1_n_n.lhsIdx_val_of_single rfl j k
theorem rhs_con_T0 (j : S10000x5.Idx) (k : dot_S10000x5_S5x5_S10000x5_1_0_0_1_n_n.contr.Idx) :
    (dot_S10000x5_S5x5_S10000x5_1_0_0_1_n_n.rhsIdx j k 0 : ℕ) = k ⟨0, by decide⟩ :=
  dot_S10000x5_S5x5_S10000x5_1_0_0_1_n_n.rhsIdx_val_of_single rfl j k
theorem rhs_col_T0 (j : S10000x5.Idx) (k : dot_S10000x5_S5x5_S10000x5_1_0_0_1_n_n.contr.Idx) :
    (dot_S10000x5_S5x5_S10000x5_1_0_0_1_n_n.rhsIdx j k 1 : ℕ) = j 1 := by
  simp [DotDims.rhsIdx, dot_S10000x5_S5x5_S10000x5_1_0_0_1_n_n]; rfl

/-- The body's payload at row p, column q of the block: into a zero accumulator the product is just the sum, and the
    one contracted axis has extent 5, so the sum runs over the five columns of the row block. -/
theorem pay_apply_T0 (x : FVec Ideal S10000x5 .f32) (w : FVec Ideal S5x5 .f32) (p : Fin 10000) (q : Fin 5) :
    k0_pay1 x w (ix2 p q) = ∑ k : Fin 5, x (ix2 p k) * w (ix2 k q) := by
  unfold k0_pay1
  refine (Ideal.matmul_constant_zero_apply dot_S10000x5_S5x5_S10000x5_1_0_0_1_n_n none x w (ix2 p q)).trans ?_
  rw [← Equiv.sum_comp (contrEquiv1 dot_S10000x5_S5x5_S10000x5_1_0_0_1_n_n 5 rfl rfl).symm]
  refine Finset.sum_congr rfl fun k _ => ?_
  have hk := contrEquiv1_symm_val dot_S10000x5_S5x5_S10000x5_1_0_0_1_n_n 5 rfl rfl k
  have hl : dot_S10000x5_S5x5_S10000x5_1_0_0_1_n_n.lhsIdx (ix2 p q)
      ((contrEquiv1 dot_S10000x5_S5x5_S10000x5_1_0_0_1_n_n 5 rfl rfl).symm k) = ix2 p k := by
    funext a; apply Fin.ext
    match a with
    | ⟨0, _⟩ => exact lhs_row_T0 _ _
    | ⟨1, _⟩ => exact (lhs_con_T0 _ _).trans hk
  have hr : dot_S10000x5_S5x5_S10000x5_1_0_0_1_n_n.rhsIdx (ix2 p q)
      ((contrEquiv1 dot_S10000x5_S5x5_S10000x5_1_0_0_1_n_n 5 rfl rfl).symm k) = ix2 k q := by
    funext a; apply Fin.ext
    match a with
    | ⟨0, _⟩ => exact (rhs_con_T0 _ _).trans hk
    | ⟨1, _⟩ => exact rhs_col_T0 _ _
  rw [hl, hr]

/-- At one point of the grid: if the staged row block agrees with x along the output index's row, and the staged
    weights agree with w along its column, the payload's entry is the dense transform's entry. -/
theorem point_eq_T0 (X : FVec Ideal Cert.Gcn.SN5 .f32) (W : FVec Ideal Cert.Gcn.SW .f32)
    (x : FVec Ideal S10000x5 .f32) (w : FVec Ideal S5x5 .f32) (y : S10000x5.Idx) (i : Cert.Gcn.SN5.Idx)
    (hx : ∀ k : Fin 5, x (ix2 (y 0) k) = X (ix2 (i 0) k))
    (hw : ∀ k : Fin 5, w (ix2 k (y 1)) = W (ix2 k (i 1))) :
    k0_pay1 x w y = Cert.Gcn.lin X W i := by
  obtain ⟨p, q, rfl⟩ : ∃ (p : Fin 10000) (q : Fin 5), y = ix2 p q := ⟨y 0, y 1, eq_ix2 y⟩
  refine (pay_apply_T0 x w p q).trans ?_
  exact Finset.sum_congr rfl fun k _ => congrArg₂ (· * ·) (hx k) (hw k)

/-! ## From the blocks to the array -/

theorem zeros_T0 : (![0, 0] : Fin 2 → Nat) = fun _ => 0 := funext fun a => by fin_cases a <;> rfl

/-- The block indices over the grid: the row block of x and of the output at point t is block t, in the one block of
    columns; the weights are the one block of w at every point. -/
theorem idx_T0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense transform of the arrays as the region finds them: an element of
    a block sits in its array, on each axis, at block index × block size + its coordinate inside the block. -/
theorem flushed_T0 (t : Fin cfg0.N) :
    (dat0 (F := Ideal) V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero zeros_T0]
  simp only [View.ld_unit_zero (S := S10000x5) zeros_T0, View.ld_unit_zero (S := S5x5) zeros_T0]
  obtain ⟨e00, e01, e10, e11, e20, e21⟩ := idx_T0 t
  funext j
  refine point_eq_T0 (V c main_arg0) (V c main_arg2) (iblk0 V c 0 t) (iblk0 V c 1 t) j
    (((cfg0.win 2).blk t).view.emb j) ?_ ?_
  · intro k
    show V c main_arg0 (((cfg0.win 0).blk t).view.emb (ix2 (j 0) k))
      = V c main_arg0 (ix2 (((cfg0.win 2).blk t).view.emb j 0) k)
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 5 + 1 * k.val = k.val
      omega
  · intro k
    show V c main_arg2 (((cfg0.win 1).blk t).view.emb (ix2 k (j 1)))
      = V c main_arg2 (ix2 k (((cfg0.win 2).blk t).view.emb j 1))
    refine congrArg (V c main_arg2) (funext fun a => Fin.ext ?_)
    match a with
    | ⟨0, _⟩ =>
      show win0_1.index t (0 : Fin 2) * 5 + 1 * k.val = k.val
      omega
    | ⟨1, _⟩ =>
      show win0_1.index t (1 : Fin 2) * 5 + 1 * (j 1).val = win0_2.index t (1 : Fin 2) * 5 + 1 * (j 1).val
      omega

/-- An index of the output array is in the block of point t iff each coordinate is in the block's range on its axis. -/
theorem mem_blk_T0 (t : Fin cfg0.N) (i : S1000000x5.Idx) :
    i ∈ ((cfg0.win 2).blk t).view.set ↔ ∀ a : Fin 2, win0_2.index t a * S10000x5.size a ≤ (i a).val
      ∧ (i a).val < win0_2.index t a * S10000x5.size a + S10000x5.size a := by
  show i ∈ ((View.whole main_v35).slice (win0_2.rect t)).set ↔ _
  rw [View.set_slice_whole, Rect.mem_set_unit]
  exact Iff.rfl

/-- Every row r of the output lies in the block of the point r / 10000, and every point writes its block back: the
    hundred blocks of 10000 rows tile the million rows. -/
theorem cover_T0 (i : S1000000x5.Idx) :
    ∃ t : Fin cfg0.N, (cfg0.win 2).flush t = true ∧ i ∈ ((cfg0.win 2).blk t).view.set := by
  have hi0 : (i 0).val < 1000000 := (i 0).isLt
  have hi1 : (i 1).val < 5 := (i 1).isLt
  have hN : cfg0.N = 100 := N_0
  have ht : (i 0).val / 10000 < cfg0.N := by rw [hN]; omega
  obtain ⟨-, -, -, -, e20, e21⟩ := idx_T0 ⟨(i 0).val / 10000, ht⟩
  refine ⟨⟨(i 0).val / 10000, ht⟩, flush0_2 _, ?_⟩
  rw [mem_blk_T0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, ht⟩ (1 : Fin 2) * 5 ≤ (i 1).val
      ∧ (i 1).val < win0_2.index ⟨(i 0).val / 10000, ht⟩ (1 : Fin 2) * 5 + 5
    rw [e21]
    omega

theorem final0 : (dat0 (F := Ideal) V c).arrAt 2 cfg0.N = Cert.Gcn.lin (V c main_arg0) (V c main_arg2) :=
  (dat0 (F := Ideal) V c).arrAt_eq_of_cover 2 _ (fun t _ => flushed_T0 V c t) cover_T0

end Cert.KernelIdeal.RegionVal

end
-- ==== Proof.RegionMul1.lean ====
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offset of the body's one store, as the constant function. -/
theorem zero_off1 : (![0, 0] : Fin 2 → Nat) = fun _ => 0 := funext fun a => by fin_cases a <;> rfl

/-- The body's payload at an index: the two identity casts fall away and the product is read pointwise. -/
theorem pay_mul1 (x0 x1 : Vec Ideal S12000x128 .f32) (y : S12000x128.Idx) :
    k1_pay1 (F := Ideal) x0 x1 y = x0 y * x1 y := by
  unfold k1_pay1
  rw [shapeCast_self, shapeCast_self]
  rfl

/-- The product of two arrays read at one index, from the factors read at two indices equal to it. -/
theorem mul_at1 (A B : FVec Ideal S1296000x128 .f32) (i0 i1 i2 : S1296000x128.Idx) (h0 : i0 = i2) (h1 : i1 = i2) :
    A i0 * B i1 = mulf A B i2 := by
  subst h0 h1; rfl

/-- The printed index maps over the 108 grid points: both inputs' blocks sit where the output's block sits, and the
    output's block at point t is block t along the rows, block 0 along the columns. -/
theorem idx_mul1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

/-- What point t writes back is block t of the elementwise product of the two whole arrays: the one store is the
    payload over the two staged blocks, and each staged block is read where the output's block sits. -/
theorem flushed_mul1 (t : Fin cfg1.N) :
    (dat1 (F := Ideal) V c).flushed 2 t = ((cfg1.win 2).blk t).view.read (Elt Ideal) (mulf (F := Ideal) (s := S1296000x128) (φ := .f32) (V c main_v45) (V c main_v34)) := by
  show (cfg1.win 2).cut (grid1.coords t) ((dat1 V c).after 2 t) = _
  rw [after1_2]
  unfold out1_2
  rw [View.canon_unit_zero zero_off1]
  simp only [View.ld_unit_zero (S := S12000x128) zero_off1]
  funext j
  refine (pay_mul1 (iblk1 V c 0 t) (iblk1 V c 1 t) j).trans ?_
  obtain ⟨e0, e1, e2, e3, e4, e5⟩ := idx_mul1 t
  have h0 : ((cfg1.win 0).blk t).view.emb j = ((cfg1.win 2).blk t).view.emb j := by
    funext a; apply Fin.ext
    match a with
    | ⟨0, _⟩ => show win1_0.index t (0 : Fin 2) * 12000 + 1 * (j 0).val = win1_2.index t (0 : Fin 2) * 12000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 12000 + 1 * (j 0).val = win1_2.index t (0 : Fin 2) * 12000 + 1 * (j 0).val; omega
    | ⟨1, _⟩ => show win1_1.index t (1 : Fin 2) * 128 + 1 * (j 1).val = win1_2.index t (1 : Fin 2) * 128 + 1 * (j 1).val; omega
  exact mul_at1 (V c main_v45) (V c main_v34) _ _ _ h0 h1

/-- An index of the array is in point t's block iff each coordinate is in the block's range on its axis. -/
theorem mem_blk_mul1 (t : Fin cfg1.N) (i : S1296000x128.Idx) :
    i ∈ ((cfg1.win 2).blk t).view.set ↔ ∀ a : Fin 2, win1_2.index t a * S12000x128.size a ≤ (i a).val ∧ (i a).val < win1_2.index t a * S12000x128.size a + S12000x128.size a := by
  show i ∈ ((View.whole main_v46).slice (win1_2.rect t)).set ↔ _
  rw [View.set_slice_whole, Rect.mem_set_unit]
  exact Iff.rfl

/-- The 108 blocks of 12000 rows tile the 1296000 rows: row r is in the block of point r / 12000. -/
theorem cover_mul1 (i : S1296000x128.Idx) :
    ∃ t : Fin cfg1.N, (cfg1.win 2).flush t = true ∧ i ∈ ((cfg1.win 2).blk t).view.set := by
  have hN : grid1.N = 108 := N_1
  have hi0 : (i 0).val < 1296000 := (i 0).isLt
  have hi1 : (i 1).val < 128 := (i 1).isLt
  have ht : (i 0).val / 12000 < cfg1.N := by
    show (i 0).val / 12000 < grid1.N
    omega
  obtain ⟨t, htv⟩ : ∃ t : Fin cfg1.N, t.val = (i 0).val / 12000 := ⟨⟨_, ht⟩, rfl⟩
  obtain ⟨e0, e1, e2, e3, e4, e5⟩ := idx_mul1 t
  refine ⟨t, flush1_2 t, ?_⟩
  rw [mem_blk_mul1]
  intro a
  match a with
  | ⟨0, _⟩ =>
    show win1_2.index t (0 : Fin 2) * 12000 ≤ (i 0).val ∧ (i 0).val < win1_2.index t (0 : Fin 2) * 12000 + 12000
    omega
  | ⟨1, _⟩ =>
    show win1_2.index t (1 : Fin 2) * 128 ≤ (i 1).val ∧ (i 1).val < win1_2.index t (1 : Fin 2) * 128 + 128
    omega

/-- After all 108 points the output array is the elementwise product of the two whole input arrays. -/
theorem final1 : (dat1 (F := Ideal) V c).arrAt 2 cfg1.N = mulf (F := Ideal) (s := S1296000x128) (φ := .f32) (V c main_v45) (V c main_v34) :=
  (dat1 (F := Ideal) V c).arrAt_eq_of_cover 2 _ (fun t _ => flushed_mul1 V c t) cover_mul1

end Cert.KernelIdeal.RegionVal

end
-- ==== Proof.RegionBR2.lean ====
/-
  Bias and positive part, first layer. The region walks 100 grid points; point `t` stages rows
  10000·t … 10000·t + 9999 (all five columns) of the node array `a : [1000000, 5]`, the whole bias row `b : [1, 5]`, and
  writes back the same rows of the output. The body stores `max (x + (the bias row repeated down the block)) 0`.
  Since every block reads and writes its own rows, and the 100 blocks tile the array, the output array ends as
      out[n, j] = max (a[n, j] + b[0, j]) 0      for every node n and column j,
  the zero being the float word 0x00000000 on both sides.
-/
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The body's loads and its store start at row 0, column 0 of their staging buffers. -/
theorem br2_zeroOff : (![0, 0] : Fin 2 → Nat) = fun _ => 0 := funext fun a => by fin_cases a <;> rfl

/-- What the body stores at row `p`, column `q` of a block: the block's entry there plus the bias row's entry in
    column `q` (the one row is repeated down the block), then the larger of that and the zero word. -/
theorem br2_pay (x0 : Vec Ideal S10000x5 .f32) (x1 : Vec Ideal S1x5 .f32) (p : Fin 10000) (q : Fin 5) :
    k2_pay1 x0 x1 (ix2 p q) = max (x0 (ix2 p q) + x1 (ix2 (0 : Fin 1) q)) (Ideal.ofBits .f32 0x00000000#32) := by
  unfold k2_pay1
  rw [shapeCast_self, shapeCast_self, maximumf_apply, addf_apply, broadcast_apply, broadcastTo_1b_ab_apply]
  rfl

/-- The same at an index `y` of the block that sits at index `i` of the whole array: when the block's entry at `y` is the
    array's at `i`, the staged bias row is the bias row, and `y` and `i` are in the same column, the stored value is
    `max (a i + b[0, column of i]) 0`. -/
theorem br2_point (x0 : Vec Ideal S10000x5 .f32) (x1 : Vec Ideal S1x5 .f32)
    (a : FVec Ideal Cert.Gcn.SN5 .f32) (b : FVec Ideal ⟨2, ![1, 5]⟩ .f32) (y : S10000x5.Idx) (i : Cert.Gcn.SN5.Idx)
    (h0 : x0 y = a i) (h1 : ∀ q : Fin 5, x1 (ix2 (0 : Fin 1) q) = b (ix2 (0 : Fin 1) q)) (hi : (i 1).val = (y 1).val) :
    k2_pay1 x0 x1 y = Cert.Gcn.biasRelu2 a b i := by
  obtain ⟨p, q, rfl⟩ : ∃ (p : Fin 10000) (q : Fin 5), y = ix2 p q := ⟨y 0, y 1, eq_ix2 y⟩
  rw [br2_pay, h0, h1]
  have hq : i 1 = q := Fin.ext hi
  show _ = max (a i + b (ix2 0 (i 1))) _
  rw [hq]

/-- The index maps over the 100 grid points: the input block and the output block of point `t` are the same block,
    number `t` down the rows and the only one across the columns; the bias row's window is always its one block. -/
theorem br2_blockIdx : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of `max (a + b[0, ·]) 0` of the two arrays as the region finds them:
    the input block and the output block are the same rows of their arrays, and the staged bias row is the bias row. -/
theorem br2_flushed (t : Fin cfg2.N) :
    (dat2 (F := Ideal) V c).flushed 2 t
      = ((cfg2.win 2).blk t).view.read (Elt Ideal) (Cert.Gcn.biasRelu2 (V c main_v51) (V c main_v52)) := by
  show (cfg2.win 2).cut (grid2.coords t) ((dat2 (F := Ideal) V c).after 2 t) = _
  rw [after2_2]
  unfold out2_2
  rw [View.canon_unit_zero br2_zeroOff]
  simp only [View.ld_unit_zero (S := S10000x5) br2_zeroOff, View.ld_unit_zero (S := S1x5) br2_zeroOff]
  obtain ⟨e0, e1, e2, e3, e4, e5⟩ := br2_blockIdx t
  funext j
  show k2_pay1 (iblk2 V c 0 t) (iblk2 V c 1 t) j
    = Cert.Gcn.biasRelu2 (V c main_v51) (V c main_v52) (((cfg2.win 2).blk t).view.emb j)
  refine br2_point (iblk2 V c 0 t) (iblk2 V c 1 t) (V c main_v51) (V c main_v52) j (((cfg2.win 2).blk t).view.emb j) ?_ ?_ ?_
  · -- the input block's entry: a block's coordinate is block index × block size + the coordinate inside the block
    show V c main_v51 (((cfg2.win 0).blk t).view.emb j) = V c main_v51 (((cfg2.win 2).blk t).view.emb j)
    refine congrArg (V c main_v51) ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 5 + 1 * (j 1).val = win2_2.index t (1 : Fin 2) * 5 + 1 * (j 1).val; omega
  · -- the bias row's one block is the whole row
    intro q
    show V c main_v52 (((cfg2.win 1).blk t).view.emb (ix2 (0 : Fin 1) q)) = V c main_v52 (ix2 (0 : Fin 1) q)
    refine congrArg (V c main_v52) ?_
    funext a; apply Fin.ext
    match a with
    | ⟨0, _⟩ => show win2_1.index t (0 : Fin 2) * 1 + 1 * 0 = 0; omega
    | ⟨1, _⟩ => show win2_1.index t (1 : Fin 2) * 5 + 1 * q.val = q.val; omega
  · -- the output block spans all five columns: the column inside the block is the array's column
    show win2_2.index t (1 : Fin 2) * 5 + 1 * (j 1).val = (j 1).val
    omega

/-- An index of the output array is in point `t`'s block iff each coordinate is in the block's range on its axis. -/
theorem br2_mem_blk (t : Fin cfg2.N) (i : S1000000x5.Idx) :
    i ∈ ((cfg2.win 2).blk t).view.set
      ↔ ∀ a : Fin 2, win2_2.index t a * S10000x5.size a ≤ (i a).val ∧ (i a).val < win2_2.index t a * S10000x5.size a + S10000x5.size a := by
  show i ∈ ((View.whole main_v53).slice (win2_2.rect t)).set ↔ _
  rw [View.set_slice_whole, Rect.mem_set_unit]
  exact Iff.rfl

/-- The blocks cover the array: row `r` is in the block of point `r / 10000`, and every block has all five columns. -/
theorem br2_cover (i : S1000000x5.Idx) :
    ∃ t : Fin cfg2.N, (cfg2.win 2).flush t = true ∧ i ∈ ((cfg2.win 2).blk t).view.set := by
  have hN : cfg2.N = 100 := N_2
  have hi0 : (i 0).val < 1000000 := (i 0).isLt
  have hi1 : (i 1).val < 5 := (i 1).isLt
  have ht : (i 0).val / 10000 < cfg2.N := by rw [hN]; omega
  obtain ⟨-, -, -, -, e4, e5⟩ := br2_blockIdx ⟨(i 0).val / 10000, ht⟩
  have q0 : win2_2.index ⟨(i 0).val / 10000, ht⟩ (0 : Fin 2) = (i 0).val / 10000 := e4
  refine ⟨⟨(i 0).val / 10000, ht⟩, flush2_2 _, ?_⟩
  rw [br2_mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 5 ≤ (i 1).val
      ∧ (i 1).val < win2_2.index ⟨(i 0).val / 10000, ht⟩ (1 : Fin 2) * 5 + 5
    omega

/-- THE ARRAY after all 100 points: `out[n, j] = max (a[n, j] + b[0, j]) 0` everywhere. -/
theorem final2 : (dat2 (F := Ideal) V c).arrAt 2 cfg2.N = Cert.Gcn.biasRelu2 (V c main_v51) (V c main_v52) :=
  (dat2 (F := Ideal) V c).arrAt_eq_of_cover 2 _ (fun t _ => br2_flushed V c t) br2_cover

end Cert.KernelIdeal.RegionVal

end
-- ==== Proof.Layout.lean ====
import proofs.«123905_j21114059227766_1_alg».proof.Proof.Spec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

/-- Padding the per-edge rows and the edge weights, laying both 128 to a row, multiplying there and laying the product back
    five to a row is the row-by-weight product on the unpadded rows. Entry `(e, j)` sits at row-major position `5e + j` in
    `[33177600, 5]`, hence at `((5e+j) / 128, (5e+j) % 128)` in `[1296000, 128]`; both factors are read back at the same
    position: the padded rows at `(e, j)`, the repeated padded weights at `e`; `e < 33000000` falls in the first piece of
    each concatenation, so the padding values never show. -/
theorem unflat_flat_scale (g : FVec Ideal SE5 .f32) (n : FVec Ideal SE .f32) (z5 : FVec Ideal SPad5 .f32) (z : FVec Ideal SPad .f32)
    (hc5 : Shape.Concatenates [SE5, SPad5] SEp5 0) (hf5 : SEp5.ShapeCasts SFlat) (hc : Shape.Concatenates [SE, SPad] SEp 0)
    (hb : SEp.BroadcastsInDim SEp5 ![0]) (hf1 : SEp5.ShapeCasts SFlat1) (hf2 : SFlat1.ShapeCasts SFlat)
    (hu : SFlat.ShapeCasts SEp5) (hs : SEp5.Slices ![0, 0] SE5) :
    extractStridedSlice SE5 ![0, 0]
      (shapeCast SEp5
        (mulf (F := Ideal) (φ := .f32) (shapeCast SFlat (concatenate SEp5 0 [⟨SE5, g⟩, ⟨SPad5, z5⟩] hc5) hf5)
          (shapeCast SFlat (shapeCast SFlat1 (broadcastInDim SEp5 ![0] hb (concatenate SEp 0 [⟨SE, n⟩, ⟨SPad, z⟩] hc)) hf1) hf2))
        hu) hs
    = scale g n := by
  funext i
  -- the two coordinates of the entry, as literal-size naturals
  obtain ⟨e, he, j, hj, rfl⟩ : ∃ (e : Nat) (he : e < 33000000) (j : Nat) (hj : j < 5),
      i = ix2 (⟨e, he⟩ : Fin 33000000) (⟨j, hj⟩ : Fin 5) :=
    ⟨(i 0).val, idx2_lt0 i, (i 1).val, idx2_lt1 i, eq_ix2 i⟩
  -- the same entry among the padded rows, its place 128 to a row, its flat position, and its edge among the padded weights
  have hep : e < 33177600 := by omega
  have hq : (5 * e + j) / 128 < 1296000 := by omega
  have hr : (5 * e + j) % 128 < 128 := by omega
  have hp : 5 * e + j < 165888000 := by omega
  let k5 : SEp5.Idx := ix2 (⟨e, hep⟩ : Fin 33177600) (⟨j, hj⟩ : Fin 5)
  let kf : SFlat.Idx := ix2 (⟨(5 * e + j) / 128, hq⟩ : Fin 1296000) (⟨(5 * e + j) % 128, hr⟩ : Fin 128)
  let k1 : SFlat1.Idx := ix1 (⟨5 * e + j, hp⟩ : Fin 165888000)
  let ke : SEp.Idx := ix1 (⟨e, hep⟩ : Fin 33177600)
  -- row-major positions: all three are 5e + j
  have pos5 : (SEp5.rowMajor k5).val = 5 * e + j := by
    rw [Shape.rowMajor_val_two]; show e * 5 + j = 5 * e + j; omega
  have posf : (SFlat.rowMajor kf).val = 5 * e + j := by
    rw [Shape.rowMajor_val_two]; show (5 * e + j) / 128 * 128 + (5 * e + j) % 128 = 5 * e + j; omega
  have pos1 : (SFlat1.rowMajor k1).val = 5 * e + j := by
    rw [Shape.rowMajor_val_one]
  -- keeping the first 33000000 rows: entry (e, j) of the slice is entry (e, j) of the padded product
  refine (extractStridedSlice_apply _ _ hs _ k5 (fun a => match a with
    | ⟨0, _⟩ => by show e = 0 + e; omega
    | ⟨1, _⟩ => by show j = 0 + j; omega)).trans ?_
  -- laid back five to a row: the same row-major position 128 to a row
  refine (shapeCast_apply _ hu k5 kf (by rw [pos5, posf])).trans ?_
  -- the product there is the product of the two factors there
  refine (mulf_apply _ _ kf).trans ?_
  show _ = g (ix2 (⟨e, he⟩ : Fin 33000000) (⟨j, hj⟩ : Fin 5)) * n (ix1 (⟨e, he⟩ : Fin 33000000))
  -- first factor: the padded rows 128 to a row, read back at (e, j), in the first piece
  have f1 : shapeCast SFlat (concatenate SEp5 0 [⟨SE5, g⟩, ⟨SPad5, z5⟩] hc5) hf5 kf
      = g (ix2 (⟨e, he⟩ : Fin 33000000) (⟨j, hj⟩ : Fin 5)) := by
    refine (shapeCast_apply _ hf5 kf k5 (by rw [pos5, posf])).trans ?_
    exact concatenate_pair_apply_left 0 g z5 hc5 k5 rfl _ (fun b => match b with
      | ⟨0, _⟩ => rfl
      | ⟨1, _⟩ => rfl)
  -- second factor: the padded weights, each repeated five times, flattened, 128 to a row: read back at edge e, first piece
  have f2 : shapeCast SFlat (shapeCast SFlat1 (broadcastInDim SEp5 ![0] hb (concatenate SEp 0 [⟨SE, n⟩, ⟨SPad, z⟩] hc)) hf1) hf2 kf
      = n (ix1 (⟨e, he⟩ : Fin 33000000)) := by
    refine (shapeCast_apply _ hf2 kf k1 (by rw [pos1, posf])).trans ?_
    refine (shapeCast_apply _ hf1 k1 k5 (by rw [pos5, pos1])).trans ?_
    refine (broadcastInDim_apply ![0] hb _ k5 ke (fun a => match a with
      | ⟨0, _⟩ => by
        show e = if (33177600 : Nat) = 1 then 0 else e
        rw [if_neg (by omega)])).trans ?_
    exact concatenate_pair_apply_left 0 n z hc ke rfl _ (fun b => match b with
      | ⟨0, _⟩ => rfl)
  rw [f1, f2]

/-- The bias laid as one row `[1, 5]` read at `(0, j)` is the bias at `j`. -/
theorem biasRelu2_row (a : FVec Ideal SN5 .f32) (b : FVec Ideal SB .f32) (h : SB.ShapeCasts ⟨2, ![1, 5]⟩) :
    biasRelu2 a (shapeCast ⟨2, ![1, 5]⟩ b h) = biasRelu a b := by
  funext i
  show max (a i + shapeCast ⟨2, ![1, 5]⟩ b h (ix2 (0 : Fin 1) (i 1 : Fin 5))) _ = max (a i + b (ix1 (i 1 : Fin 5))) _
  rw [shapeCast_a_1a_apply b h (0 : Fin 1) (i 1 : Fin 5)]

/-- The head's bias laid as `[1, 1]` read at `(0, 0)` is the bias at `0`. -/
theorem head2_row (x : FVec Ideal SN5 .f32) (wl : FVec Ideal SWl .f32) (bl : FVec Ideal SBl .f32) (h : SBl.ShapeCasts ⟨2, ![1, 1]⟩) :
    head2 x wl (shapeCast ⟨2, ![1, 1]⟩ bl h) = head x wl bl := by
  funext i
  show (∑ k : Fin 5, x (ix2 (i 0) k) * wl (ix2 k (i 1))) + shapeCast ⟨2, ![1, 1]⟩ bl h (ix2 (0 : Fin 1) (0 : Fin 1))
    = (∑ k : Fin 5, x (ix2 (i 0) k) * wl (ix2 k (i 1))) + bl (ix1 (0 : Fin 1))
  rw [shapeCast_a_1a_apply bl h (0 : Fin 1) (0 : Fin 1)]

end Cert.Gcn

end
-- ==== Proof.Walk1.lean ====
import proofs.«123905_j21114059227766_1_alg».proof.Proof.Gen.KernelIdeal.Frame
import proofs.«123905_j21114059227766_1_alg».proof.Proof.KDefs
import proofs.«123905_j21114059227766_1_alg».proof.Proof.RegionT0
import proofs.«123905_j21114059227766_1_alg».proof.Proof.RegionMul1
import proofs.«123905_j21114059227766_1_alg».proof.Proof.RegionBR2
import proofs.«123905_j21114059227766_1_alg».proof.Proof.Layout
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Cert.KernelIdeal.Facts₀ Cert.KernelIdeal.Facts
open Idealize.ShloMosaic.StableHlo

variable (m : (ℓ : Loc nD τ sig) → Buf (Elt Ideal) ℓ) (ρ : Dev nD → PrngReg) (c : Dev nD)

namespace First

/-! ## Agreement of two buffer contents at the references still read later -/

/-- `W'` holds what `W` holds at the seven arguments other than the edge list. -/
structure SameArgs (W W' : Valuation τ sig (Elt Ideal)) : Prop where
  a0 : W' (Proc.devRef .tc main_arg0) = W (Proc.devRef .tc main_arg0)
  a2 : W' (Proc.devRef .tc main_arg2) = W (Proc.devRef .tc main_arg2)
  a3 : W' (Proc.devRef .tc main_arg3) = W (Proc.devRef .tc main_arg3)
  a4 : W' (Proc.devRef .tc main_arg4) = W (Proc.devRef .tc main_arg4)
  a5 : W' (Proc.devRef .tc main_arg5) = W (Proc.devRef .tc main_arg5)
  a6 : W' (Proc.devRef .tc main_arg6) = W (Proc.devRef .tc main_arg6)
  a7 : W' (Proc.devRef .tc main_arg7) = W (Proc.devRef .tc main_arg7)

/-- `W'` holds what `W` holds at the two lists of edge endpoints. -/
structure SameEnds (W W' : Valuation τ sig (Elt Ideal)) : Prop where
  v3 : W' (Proc.devRef .tc main_v3) = W (Proc.devRef .tc main_v3)
  v6 : W' (Proc.devRef .tc main_v6) = W (Proc.devRef .tc main_v6)

/-- `W'` holds what `W` holds at every reference `K.Live` lists. -/
structure SameLive (W W' : Valuation τ sig (Elt Ideal)) : Prop where
  v3 : W' (Proc.devRef .tc main_v3) = W (Proc.devRef .tc main_v3)
  v6 : W' (Proc.devRef .tc main_v6) = W (Proc.devRef .tc main_v6)
  v34 : W' (Proc.devRef .tc main_v34) = W (Proc.devRef .tc main_v34)
  a3 : W' (Proc.devRef .tc main_arg3) = W (Proc.devRef .tc main_arg3)
  a4 : W' (Proc.devRef .tc main_arg4) = W (Proc.devRef .tc main_arg4)
  a5 : W' (Proc.devRef .tc main_arg5) = W (Proc.devRef .tc main_arg5)
  a6 : W' (Proc.devRef .tc main_arg6) = W (Proc.devRef .tc main_arg6)
  a7 : W' (Proc.devRef .tc main_arg7) = W (Proc.devRef .tc main_arg7)

/-- What `K.Live` lists moves along an agreement. -/
theorem live_of_same {W W' : Valuation τ sig (Elt Ideal)} (h : K.Live m c W) (s : SameLive W W') : K.Live m c W' :=
  ⟨s.v3.trans h.v3, s.v6.trans h.v6, s.v34.trans h.v34, s.a3.trans h.a3, s.a4.trans h.a4, s.a5.trans h.a5,
    s.a6.trans h.a6, s.a7.trans h.a7⟩

/-- A reference none of a stretch's operations writes keeps its contents: each operation's result there is what was there. -/
local macro "host_keep" : tactic => `(tactic| (after_results <;> rfl))

/-! ## The host stretches, from any contents `V` at their entry -/

section Host

variable (V : Valuation τ sig (Elt Ideal))

/-! ### The first stretch: the edge endpoints with the self loops, the in-degree, its comparison with zero and its inverse root -/

theorem h0_args : SameArgs V (after hostOps0 V) :=
  ⟨by host_keep, by host_keep, by host_keep, by host_keep, by host_keep, by host_keep, by host_keep⟩

theorem h0_v3 : after hostOps0 V (Proc.devRef .tc main_v3) = K.src (V (Proc.devRef .tc main_arg1)) := by
  after_results <;> rfl

theorem h0_v6 : after hostOps0 V (Proc.devRef .tc main_v6) = K.dst (V (Proc.devRef .tc main_arg1)) := by
  after_results <;> rfl

theorem h0_v12 : after hostOps0 V (Proc.devRef .tc main_v12)
    = cmpf .ogt (K.deg (V (Proc.devRef .tc main_arg1)))
        (broadcastInDim S1000000 ![] Facts₀.bcast_S_S1000000 (constant (F := Ideal) S_ .f32 0x00000000#32)) := by
  after_results <;> rfl

theorem h0_v13 : after hostOps0 V (Proc.devRef .tc main_v13) = Host.rsqrt (K.deg (V (Proc.devRef .tc main_arg1))) := by
  after_results <;> rfl

theorem h0_cst2 : after hostOps0 V (Proc.devRef .tc main_cst_2) = constant (F := Ideal) S_ .f32 0x00000000#32 := by
  after_results <;> rfl

/-! ### The second stretch: the inverse root where the degree is positive, zero elsewhere -/

theorem h01_args : SameArgs V (after hostOps0_1 V) :=
  ⟨by host_keep, by host_keep, by host_keep, by host_keep, by host_keep, by host_keep, by host_keep⟩

theorem h01_ends : SameEnds V (after hostOps0_1 V) := ⟨by host_keep, by host_keep⟩

theorem h01_v14 : after hostOps0_1 V (Proc.devRef .tc main_v14)
    = select (V (Proc.devRef .tc main_v12)) (V (Proc.devRef .tc main_v13))
        (broadcastInDim S1000000 ![] Facts₀.bcast_S_S1000000 (id (V (Proc.devRef .tc main_cst_2)))) := by
  after_results <;> rfl

/-! ### The third stretch: the edge weights, padded, repeated along the row and laid 128 to a row -/

theorem h02_args : SameArgs V (after hostOps0_2 V) :=
  ⟨by host_keep, by host_keep, by host_keep, by host_keep, by host_keep, by host_keep, by host_keep⟩

theorem h02_ends : SameEnds V (after hostOps0_2 V) := ⟨by host_keep, by host_keep⟩

/-- A stretch run in two parts. -/
theorem after_split (k : Nat) (ops : List (HloOp τ sig (Elt Ideal))) :
    after ops V = after (ops.drop k) (after (ops.take k) V) := by
  rw [← StableHlo.after_append, List.take_append_drop]

/-- Its first nineteen operations: the product of the inverse roots gathered at the two wrapped endpoint lists. -/
theorem h02_v29 : after (hostOps0_2.take 19) V (Proc.devRef .tc main_v29)
    = mulf (F := Ideal) (s := S33000000) (φ := .f32)
        (Host.gather gather_S1000000_S33000000x1_S33000000_n_0_n_n_0_1_1 (V (Proc.devRef .tc main_v14))
          (K.wrap (V (Proc.devRef .tc main_v3))))
        (Host.gather gather_S1000000_S33000000x1_S33000000_n_0_n_n_0_1_1 (V (Proc.devRef .tc main_v14))
          (K.wrap (V (Proc.devRef .tc main_v6)))) := by
  simp only [hostOps0_2, List.take_succ_cons, List.take_zero]
  after_results_simp
  rfl

/-- Its last six: the padding, the repeat along the row and the two re-layouts, of whatever the product's buffer holds. -/
theorem h02_tail : after (hostOps0_2.drop 19) V (Proc.devRef .tc main_v34) = K.nrmFlat (V (Proc.devRef .tc main_v29)) := by
  simp only [hostOps0_2, List.drop_succ_cons, List.drop_zero]
  after_results
  rfl

theorem h02_v34 : after hostOps0_2 V (Proc.devRef .tc main_v34)
    = K.nrmFlat (mulf
        (Host.gather gather_S1000000_S33000000x1_S33000000_n_0_n_n_0_1_1 (V (Proc.devRef .tc main_v14))
          (K.wrap (V (Proc.devRef .tc main_v3))))
        (Host.gather gather_S1000000_S33000000x1_S33000000_n_0_n_n_0_1_1 (V (Proc.devRef .tc main_v14))
          (K.wrap (V (Proc.devRef .tc main_v6))))) := by
  rw [after_split V 19 hostOps0_2, h02_tail, h02_v29]

/-! ### The stretch before the product: the gathered rows, padded and laid 128 to a row -/

theorem h1_live : SameLive V (after hostOps1 V) :=
  ⟨by host_keep, by host_keep, by host_keep, by host_keep, by host_keep, by host_keep, by host_keep, by host_keep⟩

theorem h1_v45 : after hostOps1 V (Proc.devRef .tc main_v45)
    = K.flat5 (Host.gather gather_S1000000x5_S33000000x1_S33000000x5_1_0_n_n_0_1_15 (V (Proc.devRef .tc main_v35))
        (K.wrap (V (Proc.devRef .tc main_v3)))) := by
  after_results <;> rfl

/-! ### The stretch after the product: back to per-edge rows, summed into the nodes; the bias as one row -/

theorem h2_live : SameLive V (after hostOps2 V) :=
  ⟨by host_keep, by host_keep, by host_keep, by host_keep, by host_keep, by host_keep, by host_keep, by host_keep⟩

theorem h2_v51 : after hostOps2 V (Proc.devRef .tc main_v51)
    = Host.scatterAdd scatter_S1000000x5_S33000000x1_S33000000x5_1_0_0_1
        (broadcastInDim S1000000x5 ![] Facts₀.bcast_S_S1000000x5 (constant (F := Ideal) S_ .f32 0x00000000#32))
        (broadcastInDim S33000000x1 ![0] Facts₀.bcast_S33000000_S33000000x1_0 (V (Proc.devRef .tc main_v6)))
        (K.unflat (V (Proc.devRef .tc main_v46))) := by
  after_results <;> rfl

theorem h2_v52 : after hostOps2 V (Proc.devRef .tc main_v52)
    = shapeCast S1x5 (V (Proc.devRef .tc main_arg3)) Facts₀.shapeCasts_S5_S1x5 := by
  after_results <;> rfl

end Host

/-! ## The arguments at the boundaries before the first region -/

/-- The seven arguments other than the edge list at their launch contents. -/
structure Args (W : Valuation τ sig (Elt Ideal)) : Prop where
  a0 : W (Proc.devRef .tc main_arg0) = m ((c.tc : Thread nD τ).loc main_arg0)
  a2 : W (Proc.devRef .tc main_arg2) = m ((c.tc : Thread nD τ).loc main_arg2)
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)

theorem args_of_same {W W' : Valuation τ sig (Elt Ideal)} (h : Args m c W) (s : SameArgs W W') : Args m c W' :=
  ⟨s.a0.trans h.a0, s.a2.trans h.a2, s.a3.trans h.a3, s.a4.trans h.a4, s.a5.trans h.a5, s.a6.trans h.a6, s.a7.trans h.a7⟩

/-- The launch contents are the launch memory. -/
theorem args0 : Args m c (W0 m ρ c) := ⟨rfl, rfl, rfl, rfl, rfl, rfl, rfl⟩
theorem args1 : Args m c (W1 m ρ c) := args_of_same m c (args0 m ρ c) (h0_args (W0 m ρ c))
theorem args2 : Args m c (W2 m ρ c) := args_of_same m c (args1 m ρ c) (h01_args (W1 m ρ c))
theorem args3 : Args m c (W3 m ρ c) := args_of_same m c (args2 m ρ c) (h02_args (W2 m ρ c))

/-! ## The values at the boundaries before the first region -/

theorem w1_v3 : W1 m ρ c (Proc.devRef .tc main_v3) = K.src (K.ei m c) := h0_v3 (W0 m ρ c)
theorem w1_v6 : W1 m ρ c (Proc.devRef .tc main_v6) = K.dst (K.ei m c) := h0_v6 (W0 m ρ c)
theorem w1_v12 : W1 m ρ c (Proc.devRef .tc main_v12)
    = cmpf .ogt (K.deg (K.ei m c))
        (broadcastInDim S1000000 ![] Facts₀.bcast_S_S1000000 (constant (F := Ideal) S_ .f32 0x00000000#32)) := h0_v12 (W0 m ρ c)
theorem w1_v13 : W1 m ρ c (Proc.devRef .tc main_v13) = Host.rsqrt (K.deg (K.ei m c)) := h0_v13 (W0 m ρ c)
theorem w1_cst2 : W1 m ρ c (Proc.devRef .tc main_cst_2) = constant (F := Ideal) S_ .f32 0x00000000#32 := h0_cst2 (W0 m ρ c)

theorem w2_v3 : W2 m ρ c (Proc.devRef .tc main_v3) = K.src (K.ei m c) := (h01_ends (W1 m ρ c)).v3.trans (w1_v3 m ρ c)
theorem w2_v6 : W2 m ρ c (Proc.devRef .tc main_v6) = K.dst (K.ei m c) := (h01_ends (W1 m ρ c)).v6.trans (w1_v6 m ρ c)

/-- The inverse root of the in-degree: the selection of the second stretch over the first stretch's three values. -/
theorem w2_v14 : W2 m ρ c (Proc.devRef .tc main_v14) = K.dis (K.ei m c) := by
  refine (h01_v14 (W1 m ρ c)).trans ?_
  rw [w1_v12 m ρ c, w1_v13 m ρ c, w1_cst2 m ρ c]
  rfl

theorem w3_v3 : W3 m ρ c (Proc.devRef .tc main_v3) = K.src (K.ei m c) := (h02_ends (W2 m ρ c)).v3.trans (w2_v3 m ρ c)
theorem w3_v6 : W3 m ρ c (Proc.devRef .tc main_v6) = K.dst (K.ei m c) := (h02_ends (W2 m ρ c)).v6.trans (w2_v6 m ρ c)

/-- The flattened edge weights: the third stretch over the inverse root and the two endpoint lists. -/
theorem w3_v34 : W3 m ρ c (Proc.devRef .tc main_v34) = K.nrmFlat (K.nrm (K.ei m c)) := by
  refine (h02_v34 (W2 m ρ c)).trans ?_
  rw [w2_v14 m ρ c, w2_v3 m ρ c, w2_v6 m ρ c]
  rfl

theorem live3 : K.Live m c (W3 m ρ c) :=
  ⟨w3_v3 m ρ c, w3_v6 m ρ c, w3_v34 m ρ c, (args3 m ρ c).a3, (args3 m ρ c).a4, (args3 m ρ c).a5, (args3 m ρ c).a6,
    (args3 m ρ c).a7⟩

/-! ## The first region: the dense transform -/

theorem r0_live : SameLive (W3 m ρ c) (W4 m ρ c) :=
  ⟨W4_of_ne m ρ c _ (by decide), W4_of_ne m ρ c _ (by decide), W4_of_ne m ρ c _ (by decide), W4_of_ne m ρ c _ (by decide),
    W4_of_ne m ρ c _ (by decide), W4_of_ne m ρ c _ (by decide), W4_of_ne m ρ c _ (by decide), W4_of_ne m ρ c _ (by decide)⟩

theorem live4 : K.Live m c (W4 m ρ c) := live_of_same m c (live3 m ρ c) (r0_live m ρ c)

theorem w4_v35 : W4 m ρ c (Proc.devRef .tc main_v35)
    = Cert.Gcn.lin (m ((c.tc : Thread nD τ).loc main_arg0)) (m ((c.tc : Thread nD τ).loc main_arg2)) :=
  ((W4_arr m ρ c 2).trans (RegionVal.final0 (V3 m ρ) c)).trans
    (congrArg₂ Cert.Gcn.lin (args3 m ρ c).a0 (args3 m ρ c).a2)

/-! ## The gathered rows, flattened -/

theorem live5 : K.Live m c (W5 m ρ c) := live_of_same m c (live4 m ρ c) (h1_live (W4 m ρ c))

theorem w5_v45 : W5 m ρ c (Proc.devRef .tc main_v45)
    = K.flat5 (K.gat (K.ei m c)
        (Cert.Gcn.lin (m ((c.tc : Thread nD τ).loc main_arg0)) (m ((c.tc : Thread nD τ).loc main_arg2)))) := by
  refine (h1_v45 (W4 m ρ c)).trans ?_
  rw [w4_v35 m ρ c, (live4 m ρ c).v3]
  rfl

/-! ## The second region: the elementwise product with the flattened weights -/

theorem r1_live : SameLive (W5 m ρ c) (W6 m ρ c) :=
  ⟨W6_of_ne m ρ c _ (by decide), W6_of_ne m ρ c _ (by decide),
    (W6_arr m ρ c 1).trans (((dat1 (V5 m ρ) c).arrAt_in 1 rfl _).trans (A_eq1 (V5 m ρ) c 1)),
    W6_of_ne m ρ c _ (by decide), W6_of_ne m ρ c _ (by decide), W6_of_ne m ρ c _ (by decide), W6_of_ne m ρ c _ (by decide),
    W6_of_ne m ρ c _ (by decide)⟩

theorem live6 : K.Live m c (W6 m ρ c) := live_of_same m c (live5 m ρ c) (r1_live m ρ c)

theorem w6_v46 : W6 m ρ c (Proc.devRef .tc main_v46)
    = mulf (F := Ideal) (s := S1296000x128) (φ := .f32)
        (K.flat5 (K.gat (K.ei m c)
          (Cert.Gcn.lin (m ((c.tc : Thread nD τ).loc main_arg0)) (m ((c.tc : Thread nD τ).loc main_arg2)))))
        (K.nrmFlat (K.nrm (K.ei m c))) :=
  ((W6_arr m ρ c 2).trans (RegionVal.final1 (V5 m ρ) c)).trans
    (congrArg₂ (mulf (F := Ideal) (s := S1296000x128) (φ := .f32)) (w5_v45 m ρ c) (live5 m ρ c).v34)

/-! ## Back to per-edge rows and summed into the nodes -/

/-- The two re-layouts around the product cancel: what is left is each gathered row times its edge's weight. -/
theorem unflat_mul (g : FVec Ideal S33000000x5 .f32) (n : FVec Ideal S33000000 .f32) :
    K.unflat (mulf (F := Ideal) (s := S1296000x128) (φ := .f32) (K.flat5 g) (K.nrmFlat n)) = Cert.Gcn.scale g n :=
  Cert.Gcn.unflat_flat_scale g n _ _ _ _ _ _ _ _ _ _

theorem live7 : K.Live m c (W7 m ρ c) := live_of_same m c (live6 m ρ c) (h2_live (W6 m ρ c))

theorem w7_v51 : W7 m ρ c (Proc.devRef .tc main_v51)
    = K.sca (K.ei m c) (Cert.Gcn.scale
        (K.gat (K.ei m c) (Cert.Gcn.lin (m ((c.tc : Thread nD τ).loc main_arg0)) (m ((c.tc : Thread nD τ).loc main_arg2))))
        (K.nrm (K.ei m c))) := by
  refine (h2_v51 (W6 m ρ c)).trans ?_
  rw [w6_v46 m ρ c, (live6 m ρ c).v6, unflat_mul]
  rfl

theorem w7_v52 : W7 m ρ c (Proc.devRef .tc main_v52)
    = shapeCast S1x5 (m ((c.tc : Thread nD τ).loc main_arg3)) Facts₀.shapeCasts_S5_S1x5 :=
  (h2_v52 (W6 m ρ c)).trans (congrArg (fun b => shapeCast S1x5 b Facts₀.shapeCasts_S5_S1x5) (live6 m ρ c).a3)

/-! ## The third region: the bias and the positive part -/

theorem r2_live : SameLive (W7 m ρ c) (W8 m ρ c) :=
  ⟨W8_of_ne m ρ c _ (by decide), W8_of_ne m ρ c _ (by decide), W8_of_ne m ρ c _ (by decide), W8_of_ne m ρ c _ (by decide),
    W8_of_ne m ρ c _ (by decide), W8_of_ne m ρ c _ (by decide), W8_of_ne m ρ c _ (by decide), W8_of_ne m ρ c _ (by decide)⟩

end First

/-- After the first layer's last region every value later segments read is in place. -/
theorem live8 : K.Live m c (W8 m ρ c) := First.live_of_same m c (First.live7 m ρ c) (First.r2_live m ρ c)

/-- After the first layer's last region its output array holds the first layer of the network. -/
theorem w8_v53 : W8 m ρ c (Proc.devRef .tc main_v53)
    = Cert.Gcn.layer (K.gat (K.ei m c)) (K.sca (K.ei m c)) (K.nrm (K.ei m c))
        (m ((c.tc : Thread nD τ).loc main_arg0)) (m ((c.tc : Thread nD τ).loc main_arg2)) (m ((c.tc : Thread nD τ).loc main_arg3)) :=
  ((W8_arr m ρ c 2).trans (RegionVal.final2 (V7 m ρ) c)).trans
    ((congrArg₂ Cert.Gcn.biasRelu2 (First.w7_v51 m ρ c) (First.w7_v52 m ρ c)).trans (Cert.Gcn.biasRelu2_row _ _ _))

end Cert.KernelIdeal.Walk

end
-- ==== Proof.RegionT3.lean ====
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The dense transform of region 3: out[n, j] = Σ_k h[n, k] · w[k, j] over the extended reals, for
  h = main_v53 : [1000000, 5] (the first layer's output) and w = main_arg4 : [5, 5], written to
  main_v54 : [1000000, 5].

  The grid has 100 points. Point t stages rows 10000·t … 10000·t + 9999 of h (all five columns) and the whole
  of w, re-lays the row block in its own shape (the identity), multiplies it by w into a zero accumulator, and
  writes the product back as rows 10000·t … 10000·t + 9999 of the output. Row r of the output therefore comes
  from point r / 10000, and its entry in column j is the sum over the five contracted columns: a row of a
  product depends on that row of h only.
-/

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-! ## The product at an index -/

/-- The product's dimension numbers, axis by axis: the left operand is read at (row, contraction position), the
    right operand at (contraction position, column). -/
theorem lhs_row_T3 (j : S10000x5.Idx) (k : dot_S10000x5_S5x5_S10000x5_1_0_0_1_n_n.contr.Idx) :
    (dot_S10000x5_S5x5_S10000x5_1_0_0_1_n_n.lhsIdx j k 0 : ℕ) = j 0 := by
  simp [DotDims.lhsIdx, dot_S10000x5_S5x5_S10000x5_1_0_0_1_n_n]; rfl
theorem lhs_con_T3 (j : S10000x5.Idx) (k : dot_S10000x5_S5x5_S10000x5_1_0_0_1_n_n.contr.Idx) :
    (dot_S10000x5_S5x5_S10000x5_1_0_0_1_n_n.lhsIdx j k 1 : ℕ) = k ⟨0, by decide⟩ :=
  dot_S10000x5_S5x5_S10000x5_1_0_0_1_n_n.lhsIdx_val_of_single rfl j k
theorem rhs_con_T3 (j : S10000x5.Idx) (k : dot_S10000x5_S5x5_S10000x5_1_0_0_1_n_n.contr.Idx) :
    (dot_S10000x5_S5x5_S10000x5_1_0_0_1_n_n.rhsIdx j k 0 : ℕ) = k ⟨0, by decide⟩ :=
  dot_S10000x5_S5x5_S10000x5_1_0_0_1_n_n.rhsIdx_val_of_single rfl j k
theorem rhs_col_T3 (j : S10000x5.Idx) (k : dot_S10000x5_S5x5_S10000x5_1_0_0_1_n_n.contr.Idx) :
    (dot_S10000x5_S5x5_S10000x5_1_0_0_1_n_n.rhsIdx j k 1 : ℕ) = j 1 := by
  simp [DotDims.rhsIdx, dot_S10000x5_S5x5_S10000x5_1_0_0_1_n_n]; rfl

/-- The body's payload at row p, column q of the block: the cast of the row block to its own shape is the identity,
    into a zero accumulator the product is just the sum, and the one contracted axis has extent 5, so the sum runs
    over the five columns of the row block. -/
theorem pay_apply_T3 (x : FVec Ideal S10000x5 .f32) (w : FVec Ideal S5x5 .f32) (p : Fin 10000) (q : Fin 5) :
    k3_pay1 x w (ix2 p q) = ∑ k : Fin 5, x (ix2 p k) * w (ix2 k q) := by
  unfold k3_pay1
  refine (Ideal.matmul_constant_zero_apply dot_S10000x5_S5x5_S10000x5_1_0_0_1_n_n none
    (shapeCast S10000x5 x shapeCasts_S10000x5_S10000x5) w (ix2 p q)).trans ?_
  rw [shapeCast_self]
  rw [← Equiv.sum_comp (contrEquiv1 dot_S10000x5_S5x5_S10000x5_1_0_0_1_n_n 5 rfl rfl).symm]
  refine Finset.sum_congr rfl fun k _ => ?_
  have hk := contrEquiv1_symm_val dot_S10000x5_S5x5_S10000x5_1_0_0_1_n_n 5 rfl rfl k
  have hl : dot_S10000x5_S5x5_S10000x5_1_0_0_1_n_n.lhsIdx (ix2 p q)
      ((contrEquiv1 dot_S10000x5_S5x5_S10000x5_1_0_0_1_n_n 5 rfl rfl).symm k) = ix2 p k := by
    funext a; apply Fin.ext
    match a with
    | ⟨0, _⟩ => exact lhs_row_T3 _ _
    | ⟨1, _⟩ => exact (lhs_con_T3 _ _).trans hk
  have hr : dot_S10000x5_S5x5_S10000x5_1_0_0_1_n_n.rhsIdx (ix2 p q)
      ((contrEquiv1 dot_S10000x5_S5x5_S10000x5_1_0_0_1_n_n 5 rfl rfl).symm k) = ix2 k q := by
    funext a; apply Fin.ext
    match a with
    | ⟨0, _⟩ => exact (rhs_con_T3 _ _).trans hk
    | ⟨1, _⟩ => exact rhs_col_T3 _ _
  rw [hl, hr]

/-- At one point of the grid: if the staged row block agrees with h along the output index's row, and the staged
    weights agree with w along its column, the payload's entry is the dense transform's entry. -/
theorem point_eq_T3 (X : FVec Ideal Cert.Gcn.SN5 .f32) (W : FVec Ideal Cert.Gcn.SW .f32)
    (x : FVec Ideal S10000x5 .f32) (w : FVec Ideal S5x5 .f32) (y : S10000x5.Idx) (i : Cert.Gcn.SN5.Idx)
    (hx : ∀ k : Fin 5, x (ix2 (y 0) k) = X (ix2 (i 0) k))
    (hw : ∀ k : Fin 5, w (ix2 k (y 1)) = W (ix2 k (i 1))) :
    k3_pay1 x w y = Cert.Gcn.lin X W i := by
  obtain ⟨p, q, rfl⟩ : ∃ (p : Fin 10000) (q : Fin 5), y = ix2 p q := ⟨y 0, y 1, eq_ix2 y⟩
  refine (pay_apply_T3 x w p q).trans ?_
  exact Finset.sum_congr rfl fun k _ => congrArg₂ (· * ·) (hx k) (hw k)

/-! ## From the blocks to the array -/

theorem zeros_T3 : (![0, 0] : Fin 2 → Nat) = fun _ => 0 := funext fun a => by fin_cases a <;> rfl

/-- The block indices over the grid: the row block of h and of the output at point t is block t, in the one block of
    columns; the weights are the one block of w at every point. -/
theorem idx_T3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the dense transform of the arrays as the region finds them: an element of
    a block sits in its array, on each axis, at block index × block size + its coordinate inside the block. -/
theorem flushed_T3 (t : Fin cfg3.N) :
    (dat3 (F := Ideal) V c).flushed 2 t
      = ((cfg3.win 2).blk t).view.read (Elt Ideal) (Cert.Gcn.lin (V c main_v53) (V c main_arg4)) := by
  show (cfg3.win 2).cut (grid3.coords t) ((dat3 V c).after 2 t) = _
  rw [after3_2]
  unfold out3_2
  rw [View.canon_unit_zero zeros_T3]
  simp only [View.ld_unit_zero (S := S10000x5) zeros_T3, View.ld_unit_zero (S := S5x5) zeros_T3]
  obtain ⟨e00, e01, e10, e11, e20, e21⟩ := idx_T3 t
  funext j
  refine point_eq_T3 (V c main_v53) (V c main_arg4) (iblk3 V c 0 t) (iblk3 V c 1 t) j
    (((cfg3.win 2).blk t).view.emb j) ?_ ?_
  · intro k
    show V c main_v53 (((cfg3.win 0).blk t).view.emb (ix2 (j 0) k))
      = V c main_v53 (ix2 (((cfg3.win 2).blk t).view.emb j 0) k)
    refine congrArg (V c main_v53) (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 5 + 1 * k.val = k.val
      omega
  · intro k
    show V c main_arg4 (((cfg3.win 1).blk t).view.emb (ix2 k (j 1)))
      = V c main_arg4 (ix2 k (((cfg3.win 2).blk t).view.emb j 1))
    refine congrArg (V c main_arg4) (funext fun a => Fin.ext ?_)
    match a with
    | ⟨0, _⟩ =>
      show win3_1.index t (0 : Fin 2) * 5 + 1 * k.val = k.val
      omega
    | ⟨1, _⟩ =>
      show win3_1.index t (1 : Fin 2) * 5 + 1 * (j 1).val = win3_2.index t (1 : Fin 2) * 5 + 1 * (j 1).val
      omega

/-- An index of the output array is in the block of point t iff each coordinate is in the block's range on its axis. -/
theorem mem_blk_T3 (t : Fin cfg3.N) (i : S1000000x5.Idx) :
    i ∈ ((cfg3.win 2).blk t).view.set ↔ ∀ a : Fin 2, win3_2.index t a * S10000x5.size a ≤ (i a).val
      ∧ (i a).val < win3_2.index t a * S10000x5.size a + S10000x5.size a := by
  show i ∈ ((View.whole main_v54).slice (win3_2.rect t)).set ↔ _
  rw [View.set_slice_whole, Rect.mem_set_unit]
  exact Iff.rfl

/-- Every row r of the output lies in the block of the point r / 10000, and every point writes its block back: the
    hundred blocks of 10000 rows tile the million rows. -/
theorem cover_T3 (i : S1000000x5.Idx) :
    ∃ t : Fin cfg3.N, (cfg3.win 2).flush t = true ∧ i ∈ ((cfg3.win 2).blk t).view.set := by
  have hi0 : (i 0).val < 1000000 := (i 0).isLt
  have hi1 : (i 1).val < 5 := (i 1).isLt
  have hN : cfg3.N = 100 := N_3
  have ht : (i 0).val / 10000 < cfg3.N := by rw [hN]; omega
  obtain ⟨-, -, -, -, e20, e21⟩ := idx_T3 ⟨(i 0).val / 10000, ht⟩
  refine ⟨⟨(i 0).val / 10000, ht⟩, flush3_2 _, ?_⟩
  rw [mem_blk_T3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e20]
    show (i 0).val / 10000 * 10000 ≤ (i 0).val ∧ (i 0).val < (i 0).val / 10000 * 10000 + 10000
    omega
  | ⟨1, _⟩ =>
    show win3_2.index ⟨(i 0).val / 10000, ht⟩ (1 : Fin 2) * 5 ≤ (i 1).val
      ∧ (i 1).val < win3_2.index ⟨(i 0).val / 10000, ht⟩ (1 : Fin 2) * 5 + 5
    rw [e21]
    omega

theorem final3 : (dat3 (F := Ideal) V c).arrAt 2 cfg3.N = Cert.Gcn.lin (V c main_v53) (V c main_arg4) :=
  (dat3 (F := Ideal) V c).arrAt_eq_of_cover 2 _ (fun t _ => flushed_T3 V c t) cover_T3

end Cert.KernelIdeal.RegionVal

end
-- ==== Proof.RegionMul4.lean ====
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The zero offset of the body's one store, as the constant function. -/
theorem zero_off4 : (![0, 0] : Fin 2 → Nat) = fun _ => 0 := funext fun a => by fin_cases a <;> rfl

/-- The body's payload at an index: the two identity casts fall away and the product is read pointwise. -/
theorem pay_mul4 (x0 x1 : Vec Ideal S12000x128 .f32) (y : S12000x128.Idx) :
    k4_pay1 (F := Ideal) x0 x1 y = x0 y * x1 y := by
  unfold k4_pay1
  rw [shapeCast_self, shapeCast_self]
  rfl

/-- The product of two arrays read at one index, from the factors read at two indices equal to it. -/
theorem mul_at4 (A B : FVec Ideal S1296000x128 .f32) (i0 i1 i2 : S1296000x128.Idx) (h0 : i0 = i2) (h1 : i1 = i2) :
    A i0 * B i1 = mulf A B i2 := by
  subst h0 h1; rfl

/-- The printed index maps over the 108 grid points: both inputs' blocks sit where the output's block sits, and the
    output's block at point t is block t along the rows, block 0 along the columns. -/
theorem idx_mul4 : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val
    ∧ win4_2.index t (1 : Fin 2) = 0 :=
  (by decide +kernel : ∀ t : Fin grid4.N, _)

/-- What point t writes back is block t of the elementwise product of the two whole arrays: the one store is the
    payload over the two staged blocks, and each staged block is read where the output's block sits. -/
theorem flushed_mul4 (t : Fin cfg4.N) :
    (dat4 (F := Ideal) V c).flushed 2 t = ((cfg4.win 2).blk t).view.read (Elt Ideal) (mulf (F := Ideal) (s := S1296000x128) (φ := .f32) (V c main_v64) (V c main_v34)) := by
  show (cfg4.win 2).cut (grid4.coords t) ((dat4 V c).after 2 t) = _
  rw [after4_2]
  unfold out4_2
  rw [View.canon_unit_zero zero_off4]
  simp only [View.ld_unit_zero (S := S12000x128) zero_off4]
  funext j
  refine (pay_mul4 (iblk4 V c 0 t) (iblk4 V c 1 t) j).trans ?_
  obtain ⟨e0, e1, e2, e3, e4, e5⟩ := idx_mul4 t
  have h0 : ((cfg4.win 0).blk t).view.emb j = ((cfg4.win 2).blk t).view.emb j := by
    funext a; apply Fin.ext
    match a with
    | ⟨0, _⟩ => show win4_0.index t (0 : Fin 2) * 12000 + 1 * (j 0).val = win4_2.index t (0 : Fin 2) * 12000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 12000 + 1 * (j 0).val = win4_2.index t (0 : Fin 2) * 12000 + 1 * (j 0).val; omega
    | ⟨1, _⟩ => show win4_1.index t (1 : Fin 2) * 128 + 1 * (j 1).val = win4_2.index t (1 : Fin 2) * 128 + 1 * (j 1).val; omega
  exact mul_at4 (V c main_v64) (V c main_v34) _ _ _ h0 h1

/-- An index of the array is in point t's block iff each coordinate is in the block's range on its axis. -/
theorem mem_blk_mul4 (t : Fin cfg4.N) (i : S1296000x128.Idx) :
    i ∈ ((cfg4.win 2).blk t).view.set ↔ ∀ a : Fin 2, win4_2.index t a * S12000x128.size a ≤ (i a).val ∧ (i a).val < win4_2.index t a * S12000x128.size a + S12000x128.size a := by
  show i ∈ ((View.whole main_v65).slice (win4_2.rect t)).set ↔ _
  rw [View.set_slice_whole, Rect.mem_set_unit]
  exact Iff.rfl

/-- The 108 blocks of 12000 rows tile the 1296000 rows: row r is in the block of point r / 12000. -/
theorem cover_mul4 (i : S1296000x128.Idx) :
    ∃ t : Fin cfg4.N, (cfg4.win 2).flush t = true ∧ i ∈ ((cfg4.win 2).blk t).view.set := by
  have hN : grid4.N = 108 := N_4
  have hi0 : (i 0).val < 1296000 := (i 0).isLt
  have hi1 : (i 1).val < 128 := (i 1).isLt
  have ht : (i 0).val / 12000 < cfg4.N := by
    show (i 0).val / 12000 < grid4.N
    omega
  obtain ⟨t, htv⟩ : ∃ t : Fin cfg4.N, t.val = (i 0).val / 12000 := ⟨⟨_, ht⟩, rfl⟩
  obtain ⟨e0, e1, e2, e3, e4, e5⟩ := idx_mul4 t
  refine ⟨t, flush4_2 t, ?_⟩
  rw [mem_blk_mul4]
  intro a
  match a with
  | ⟨0, _⟩ =>
    show win4_2.index t (0 : Fin 2) * 12000 ≤ (i 0).val ∧ (i 0).val < win4_2.index t (0 : Fin 2) * 12000 + 12000
    omega
  | ⟨1, _⟩ =>
    show win4_2.index t (1 : Fin 2) * 128 ≤ (i 1).val ∧ (i 1).val < win4_2.index t (1 : Fin 2) * 128 + 128
    omega

/-- After all 108 points the output array is the elementwise product of the two whole input arrays. -/
theorem final4 : (dat4 (F := Ideal) V c).arrAt 2 cfg4.N = mulf (F := Ideal) (s := S1296000x128) (φ := .f32) (V c main_v64) (V c main_v34) :=
  (dat4 (F := Ideal) V c).arrAt_eq_of_cover 2 _ (fun t _ => flushed_mul4 V c t) cover_mul4

end Cert.KernelIdeal.RegionVal

end
-- ==== Proof.RegionBR5.lean ====
/-
  Bias and positive part, second layer. The region walks 100 grid points; point `t` stages rows
  10000·t … 10000·t + 9999 (all five columns) of the node array `a : [1000000, 5]`, the whole bias row `b : [1, 5]`, and
  writes back the same rows of the output. The body stores `max (x + (the bias row repeated down the block)) 0`.
  Since every block reads and writes its own rows, and the 100 blocks tile the array, the output array ends as
      out[n, j] = max (a[n, j] + b[0, j]) 0      for every node n and column j,
  the zero being the float word 0x00000000 on both sides.
-/
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The body's loads and its store start at row 0, column 0 of their staging buffers. -/
theorem br5_zeroOff : (![0, 0] : Fin 2 → Nat) = fun _ => 0 := funext fun a => by fin_cases a <;> rfl

/-- What the body stores at row `p`, column `q` of a block: the block's entry there plus the bias row's entry in
    column `q` (the one row is repeated down the block), then the larger of that and the zero word. -/
theorem br5_pay (x0 : Vec Ideal S10000x5 .f32) (x1 : Vec Ideal S1x5 .f32) (p : Fin 10000) (q : Fin 5) :
    k5_pay1 x0 x1 (ix2 p q) = max (x0 (ix2 p q) + x1 (ix2 (0 : Fin 1) q)) (Ideal.ofBits .f32 0x00000000#32) := by
  unfold k5_pay1
  rw [shapeCast_self, shapeCast_self, maximumf_apply, addf_apply, broadcast_apply, broadcastTo_1b_ab_apply]
  rfl

/-- The same at an index `y` of the block that sits at index `i` of the whole array: when the block's entry at `y` is the
    array's at `i`, the staged bias row is the bias row, and `y` and `i` are in the same column, the stored value is
    `max (a i + b[0, column of i]) 0`. -/
theorem br5_point (x0 : Vec Ideal S10000x5 .f32) (x1 : Vec Ideal S1x5 .f32)
    (a : FVec Ideal Cert.Gcn.SN5 .f32) (b : FVec Ideal ⟨2, ![1, 5]⟩ .f32) (y : S10000x5.Idx) (i : Cert.Gcn.SN5.Idx)
    (h0 : x0 y = a i) (h1 : ∀ q : Fin 5, x1 (ix2 (0 : Fin 1) q) = b (ix2 (0 : Fin 1) q)) (hi : (i 1).val = (y 1).val) :
    k5_pay1 x0 x1 y = Cert.Gcn.biasRelu2 a b i := by
  obtain ⟨p, q, rfl⟩ : ∃ (p : Fin 10000) (q : Fin 5), y = ix2 p q := ⟨y 0, y 1, eq_ix2 y⟩
  rw [br5_pay, h0, h1]
  have hq : i 1 = q := Fin.ext hi
  show _ = max (a i + b (ix2 0 (i 1))) _
  rw [hq]

/-- The index maps over the 100 grid points: the input block and the output block of point `t` are the same block,
    number `t` down the rows and the only one across the columns; the bias row's window is always its one block. -/
theorem br5_blockIdx : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of `max (a + b[0, ·]) 0` of the two arrays as the region finds them:
    the input block and the output block are the same rows of their arrays, and the staged bias row is the bias row. -/
theorem br5_flushed (t : Fin cfg5.N) :
    (dat5 (F := Ideal) V c).flushed 2 t
      = ((cfg5.win 2).blk t).view.read (Elt Ideal) (Cert.Gcn.biasRelu2 (V c main_v70) (V c main_v71)) := by
  show (cfg5.win 2).cut (grid5.coords t) ((dat5 (F := Ideal) V c).after 2 t) = _
  rw [after5_2]
  unfold out5_2
  rw [View.canon_unit_zero br5_zeroOff]
  simp only [View.ld_unit_zero (S := S10000x5) br5_zeroOff, View.ld_unit_zero (S := S1x5) br5_zeroOff]
  obtain ⟨e0, e1, e2, e3, e4, e5⟩ := br5_blockIdx t
  funext j
  show k5_pay1 (iblk5 V c 0 t) (iblk5 V c 1 t) j
    = Cert.Gcn.biasRelu2 (V c main_v70) (V c main_v71) (((cfg5.win 2).blk t).view.emb j)
  refine br5_point (iblk5 V c 0 t) (iblk5 V c 1 t) (V c main_v70) (V c main_v71) j (((cfg5.win 2).blk t).view.emb j) ?_ ?_ ?_
  · -- the input block's entry: a block's coordinate is block index × block size + the coordinate inside the block
    show V c main_v70 (((cfg5.win 0).blk t).view.emb j) = V c main_v70 (((cfg5.win 2).blk t).view.emb j)
    refine congrArg (V c main_v70) ?_
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 5 + 1 * (j 1).val = win5_2.index t (1 : Fin 2) * 5 + 1 * (j 1).val; omega
  · -- the bias row's one block is the whole row
    intro q
    show V c main_v71 (((cfg5.win 1).blk t).view.emb (ix2 (0 : Fin 1) q)) = V c main_v71 (ix2 (0 : Fin 1) q)
    refine congrArg (V c main_v71) ?_
    funext a; apply Fin.ext
    match a with
    | ⟨0, _⟩ => show win5_1.index t (0 : Fin 2) * 1 + 1 * 0 = 0; omega
    | ⟨1, _⟩ => show win5_1.index t (1 : Fin 2) * 5 + 1 * q.val = q.val; omega
  · -- the output block spans all five columns: the column inside the block is the array's column
    show win5_2.index t (1 : Fin 2) * 5 + 1 * (j 1).val = (j 1).val
    omega

/-- An index of the output array is in point `t`'s block iff each coordinate is in the block's range on its axis. -/
theorem br5_mem_blk (t : Fin cfg5.N) (i : S1000000x5.Idx) :
    i ∈ ((cfg5.win 2).blk t).view.set
      ↔ ∀ a : Fin 2, win5_2.index t a * S10000x5.size a ≤ (i a).val ∧ (i a).val < win5_2.index t a * S10000x5.size a + S10000x5.size a := by
  show i ∈ ((View.whole main_v72).slice (win5_2.rect t)).set ↔ _
  rw [View.set_slice_whole, Rect.mem_set_unit]
  exact Iff.rfl

/-- The blocks cover the array: row `r` is in the block of point `r / 10000`, and every block has all five columns. -/
theorem br5_cover (i : S1000000x5.Idx) :
    ∃ t : Fin cfg5.N, (cfg5.win 2).flush t = true ∧ i ∈ ((cfg5.win 2).blk t).view.set := by
  have hN : cfg5.N = 100 := N_5
  have hi0 : (i 0).val < 1000000 := (i 0).isLt
  have hi1 : (i 1).val < 5 := (i 1).isLt
  have ht : (i 0).val / 10000 < cfg5.N := by rw [hN]; omega
  obtain ⟨-, -, -, -, e4, e5⟩ := br5_blockIdx ⟨(i 0).val / 10000, ht⟩
  have q0 : win5_2.index ⟨(i 0).val / 10000, ht⟩ (0 : Fin 2) = (i 0).val / 10000 := e4
  refine ⟨⟨(i 0).val / 10000, ht⟩, flush5_2 _, ?_⟩
  rw [br5_mem_blk]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    omega
  | ⟨1, _⟩ =>
    show win5_2.index ⟨(i 0).val / 10000, ht⟩ (1 : Fin 2) * 5 ≤ (i 1).val
      ∧ (i 1).val < win5_2.index ⟨(i 0).val / 10000, ht⟩ (1 : Fin 2) * 5 + 5
    omega

/-- THE ARRAY after all 100 points: `out[n, j] = max (a[n, j] + b[0, j]) 0` everywhere. -/
theorem final5 : (dat5 (F := Ideal) V c).arrAt 2 cfg5.N = Cert.Gcn.biasRelu2 (V c main_v70) (V c main_v71) :=
  (dat5 (F := Ideal) V c).arrAt_eq_of_cover 2 _ (fun t _ => br5_flushed V c t) br5_cover

end Cert.KernelIdeal.RegionVal

end
-- ==== Proof.RegionFin6.lean ====
/-
  Region 6, from its blocks to the array. The grid has a hundred points. Point `t` reads rows `10000 t … 10000 t + 9999`
  of the node array `h : [1000000, 5]`, all of the weight column `wl : [5, 1]` and the one bias entry `bl : [1, 1]`, and
  writes the same rows of the output column: the row block times the weight column, plus the bias entry spread down the
  rows. Every written block is that block of the ONE function `head2 h wl bl` of the whole arrays, and the hundred row
  blocks cover the million rows, so the array ends holding it:  out[n, 0] = Σ_k h[n, k] · wl[k, 0] + bl[0, 0].
-/
import proofs.«123905_j21114059227766_1_alg».proof.Proof.Gen.KernelIdeal.Frame
import proofs.«123905_j21114059227766_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

/-! ## The body's payload at an index -/

/-- The left operand's row coordinate is the output's row. -/
theorem lhs6_0 (j : S10000x1.Idx) (k : dot_S10000x5_S5x1_S10000x1_1_0_0_1_n_n.contr.Idx) :
    (dot_S10000x5_S5x1_S10000x1_1_0_0_1_n_n.lhsIdx j k 0).val = (j 0).val := rfl
/-- The left operand's column coordinate is the contraction position. -/
theorem lhs6_1 (j : S10000x1.Idx) (k : dot_S10000x5_S5x1_S10000x1_1_0_0_1_n_n.contr.Idx) :
    (dot_S10000x5_S5x1_S10000x1_1_0_0_1_n_n.lhsIdx j k 1).val = (k ⟨0, by decide⟩).val :=
  dot_S10000x5_S5x1_S10000x1_1_0_0_1_n_n.lhsIdx_val_of_single rfl j k
/-- The right operand's row coordinate is the contraction position. -/
theorem rhs6_0 (j : S10000x1.Idx) (k : dot_S10000x5_S5x1_S10000x1_1_0_0_1_n_n.contr.Idx) :
    (dot_S10000x5_S5x1_S10000x1_1_0_0_1_n_n.rhsIdx j k 0).val = (k ⟨0, by decide⟩).val :=
  dot_S10000x5_S5x1_S10000x1_1_0_0_1_n_n.rhsIdx_val_of_single rfl j k
/-- The right operand's column coordinate is the output's column. -/
theorem rhs6_1 (j : S10000x1.Idx) (k : dot_S10000x5_S5x1_S10000x1_1_0_0_1_n_n.contr.Idx) :
    (dot_S10000x5_S5x1_S10000x1_1_0_0_1_n_n.rhsIdx j k 1).val = (j 1).val := rfl

/-- The product into the zero accumulator, at `(p, q)`: the sum over the five contracted coordinates. -/
theorem matmul6_apply (a : FVec Ideal S10000x5 .f32) (b : FVec Ideal S5x1 .f32) (p : Fin 10000) (q : Fin 1) :
    matmul dot_S10000x5_S5x1_S10000x1_1_0_0_1_n_n none a b (constant S10000x1 .f32 0x00000000#32) (ix2 p q)
      = ∑ k : Fin 5, a (ix2 p k) * b (ix2 k q) := by
  show FloatOps.matmul dot_S10000x5_S5x1_S10000x1_1_0_0_1_n_n none a b (constant S10000x1 .f32 0x00000000#32) (ix2 p q) = _
  rw [Ideal.matmul_constant_zero_apply,
    ← Equiv.sum_comp (contrEquiv1 dot_S10000x5_S5x1_S10000x1_1_0_0_1_n_n 5 rfl rfl).symm]
  refine Finset.sum_congr rfl fun k _ => ?_
  have hk := contrEquiv1_symm_val dot_S10000x5_S5x1_S10000x1_1_0_0_1_n_n 5 rfl rfl k
  have hl : dot_S10000x5_S5x1_S10000x1_1_0_0_1_n_n.lhsIdx (ix2 p q)
      ((contrEquiv1 dot_S10000x5_S5x1_S10000x1_1_0_0_1_n_n 5 rfl rfl).symm k) = ix2 p k := by
    funext ax; apply Fin.ext
    match ax with
    | ⟨0, _⟩ => exact lhs6_0 _ _
    | ⟨1, _⟩ => exact (lhs6_1 _ _).trans hk
  have hr : dot_S10000x5_S5x1_S10000x1_1_0_0_1_n_n.rhsIdx (ix2 p q)
      ((contrEquiv1 dot_S10000x5_S5x1_S10000x1_1_0_0_1_n_n 5 rfl rfl).symm k) = ix2 k q := by
    funext ax; apply Fin.ext
    match ax with
    | ⟨0, _⟩ => exact (rhs6_0 _ _).trans hk
    | ⟨1, _⟩ => exact rhs6_1 _ _
  rw [hl, hr]

/-- The one-entry bias spread down the column reads its entry at every row. -/
theorem bias6_apply (b : FVec Ideal S1x1 .f32) (p : Fin 10000) (q : Fin 1) :
    broadcastTo S10000x1 b broadcasts_S1x1_S10000x1 (ix2 p q) = b (ix2 (0 : Fin 1) (0 : Fin 1)) := by
  refine broadcastTo_apply b broadcasts_S1x1_S10000x1 (ix2 p q) (ix2 (0 : Fin 1) (0 : Fin 1)) fun ax => ?_
  match ax with
  | ⟨0, _⟩ => rfl
  | ⟨1, _⟩ => rfl

/-- The payload at `(p, q)`: the row of the node block against the weight column, plus the bias entry. -/
theorem pay6_apply (x0 : Vec Ideal S10000x5 .f32) (x1 : Vec Ideal S5x1 .f32) (x2 : Vec Ideal S1x1 .f32)
    (p : Fin 10000) (q : Fin 1) :
    k6_pay1 (F := Ideal) x0 x1 x2 (ix2 p q)
      = (∑ k : Fin 5, x0 (ix2 p k) * x1 (ix2 k q)) + x2 (ix2 (0 : Fin 1) (0 : Fin 1)) := by
  unfold k6_pay1
  show addf (F := Ideal) (matmul dot_S10000x5_S5x1_S10000x1_1_0_0_1_n_n none (shapeCast S10000x5 (x0 : FVec Ideal S10000x5 .f32) shapeCasts_S10000x5_S10000x5) (x1 : FVec Ideal S5x1 .f32)
      (constant S10000x1 .f32 0x00000000#32))
    (broadcastTo S10000x1 (shapeCast S1x1 (x2 : FVec Ideal S1x1 .f32) shapeCasts_S1x1_S1x1) broadcasts_S1x1_S10000x1) (ix2 p q) = _
  rw [shapeCast_self, shapeCast_self, addf_apply, matmul6_apply, bias6_apply]

variable (V : (c : Dev nD) → (b : Ref sig .tc) → Buf (Elt Ideal) ((c : Thread nD τ).loc b)) (c : Dev nD)

/-! ## From the blocks to the array -/

/-- The zero offsets, however spelt. -/
theorem zero_off6 : (![0, 0] : Fin 2 → Nat) = fun _ => 0 :=
  funext fun a => by match a with | ⟨0, _⟩ => rfl | ⟨1, _⟩ => rfl

/-- The block indices over the grid: the node rows and the output rows move together, block `t` at point `t`;
    the weight column and the bias entry stay at their one block. -/
theorem idx6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- One element of one block: the payload of a row block of `h`, all of `wl` and all of `bl` is the head at that row. -/
theorem head6_at (h : FVec Ideal Cert.Gcn.SN5 .f32) (wl : FVec Ideal Cert.Gcn.SWl .f32)
    (bl : FVec Ideal ⟨2, ![1, 1]⟩ .f32)
    (x0 : Vec Ideal S10000x5 .f32) (x1 : Vec Ideal S5x1 .f32) (x2 : Vec Ideal S1x1 .f32)
    (p : Fin 10000) (q : Fin 1) (n : Fin 1000000)
    (h0 : ∀ k : Fin 5, x0 (ix2 p k) = h (ix2 n k)) (h1 : ∀ k : Fin 5, x1 (ix2 k q) = wl (ix2 k q))
    (h2 : x2 (ix2 (0 : Fin 1) (0 : Fin 1)) = bl (ix2 (0 : Fin 1) (0 : Fin 1))) :
    k6_pay1 (F := Ideal) x0 x1 x2 (ix2 p q) = Cert.Gcn.head2 h wl bl (ix2 n q) := by
  rw [pay6_apply, h2]
  show _ = (∑ k : Fin 5, h (ix2 n k) * wl (ix2 k q)) + bl (ix2 (0 : Fin 1) (0 : Fin 1))
  exact congrArg (· + bl (ix2 (0 : Fin 1) (0 : Fin 1))) (Finset.sum_congr rfl fun k _ => by rw [h0 k, h1 k])

/-- WHAT POINT `t` WRITES BACK is block `t` of the head of the arrays as the region finds them. -/
theorem flushed6_eq (t : Fin cfg6.N) :
    (dat6 (F := Ideal) V c).flushed 3 t
      = ((cfg6.win 3).blk t).view.read (Elt Ideal) (Cert.Gcn.head2 (V c main_v72) (V c main_arg6) (V c main_v73)) := by
  show (cfg6.win 3).cut (grid6.coords t) ((dat6 (F := Ideal) V c).after 3 t) = _
  rw [after6_3]
  unfold out6_3
  rw [View.canon_unit_zero zero_off6]
  simp only [View.ld_unit_zero (S := S10000x5) zero_off6, View.ld_unit_zero (S := S5x1) zero_off6,
    View.ld_unit_zero (S := S1x1) zero_off6]
  obtain ⟨e0, e1, e2, e3, e4, e5, e6, e7⟩ := idx6 t
  have hN : cfg6.N = 100 := N_6
  have ht : t.val < 100 := hN ▸ t.isLt
  funext y
  obtain ⟨p, q, rfl⟩ : ∃ (p : Fin 10000) (q : Fin 1), y = ix2 p q := ⟨y 0, y 1, eq_ix2 y⟩
  have hrow : t.val * 10000 + p.val < 1000000 := by have := p.isLt; omega
  have hemb : (((cfg6.win 3).blk t).view.emb (ix2 p q) : Cert.Gcn.SN1.Idx)
      = ix2 (⟨t.val * 10000 + p.val, hrow⟩ : Fin 1000000) q := by
    funext a; apply Fin.ext
    match a with
    | ⟨0, _⟩ => show win6_3.index t (0 : Fin 2) * 10000 + 1 * p.val = t.val * 10000 + p.val; omega
    | ⟨1, _⟩ => show win6_3.index t (1 : Fin 2) * 1 + 1 * q.val = q.val; omega
  show k6_pay1 (F := Ideal) (iblk6 V c 0 t) (iblk6 V c 1 t) (iblk6 V c 2 t) (ix2 p q)
      = Cert.Gcn.head2 (V c main_v72) (V c main_arg6) (V c main_v73) (((cfg6.win 3).blk t).view.emb (ix2 p q))
  rw [hemb]
  refine head6_at _ _ _ _ _ _ p q _ (fun k => ?_) (fun k => ?_) ?_
  · -- the node block's row `p` is the array's row `10000 t + p`
    show (V c main_v72 : S1000000x5.Idx → Elt Ideal .f32) (((cfg6.win 0).blk t).view.emb (ix2 p k))
      = (V c main_v72 : S1000000x5.Idx → Elt Ideal .f32) (ix2 (⟨t.val * 10000 + p.val, hrow⟩ : Fin 1000000) k)
    refine congrArg _ (funext fun a => Fin.ext ?_)
    match a with
    | ⟨0, _⟩ => show win6_0.index t (0 : Fin 2) * 10000 + 1 * p.val = t.val * 10000 + p.val; omega
    | ⟨1, _⟩ => show win6_0.index t (1 : Fin 2) * 5 + 1 * k.val = k.val; omega
  · -- the weight block is the whole column
    show (V c main_arg6 : S5x1.Idx → Elt Ideal .f32) (((cfg6.win 1).blk t).view.emb (ix2 k q))
      = (V c main_arg6 : S5x1.Idx → Elt Ideal .f32) (ix2 k q)
    refine congrArg _ (funext fun a => Fin.ext ?_)
    match a with
    | ⟨0, _⟩ => show win6_1.index t (0 : Fin 2) * 5 + 1 * k.val = k.val; omega
    | ⟨1, _⟩ => show win6_1.index t (1 : Fin 2) * 1 + 1 * q.val = q.val; omega
  · -- the bias block is the one entry
    show (V c main_v73 : S1x1.Idx → Elt Ideal .f32) (((cfg6.win 2).blk t).view.emb (ix2 (0 : Fin 1) (0 : Fin 1)))
      = (V c main_v73 : S1x1.Idx → Elt Ideal .f32) (ix2 (0 : Fin 1) (0 : Fin 1))
    refine congrArg _ (funext fun a => Fin.ext ?_)
    match a with
    | ⟨0, _⟩ => show win6_2.index t (0 : Fin 2) * 1 + 1 * 0 = 0; omega
    | ⟨1, _⟩ => show win6_2.index t (1 : Fin 2) * 1 + 1 * 0 = 0; omega

/-- An index of the array is in point `t`'s block iff each coordinate is in the block's range on its axis. -/
theorem mem_blk6 (t : Fin cfg6.N) (i : S1000000x1.Idx) :
    i ∈ ((cfg6.win 3).blk t).view.set ↔ ∀ a : Fin 2, win6_3.index t a * S10000x1.size a ≤ (i a).val
      ∧ (i a).val < win6_3.index t a * S10000x1.size a + S10000x1.size a := by
  show i ∈ ((View.whole main_v74).slice (win6_3.rect t)).set ↔ _
  rw [View.set_slice_whole, Rect.mem_set_unit]
  exact Iff.rfl

/-- The hundred row blocks cover the array: row `r` is in the block of point `r / 10000`. -/
theorem cover6 (i : S1000000x1.Idx) :
    ∃ t : Fin cfg6.N, (cfg6.win 3).flush t = true ∧ i ∈ ((cfg6.win 3).blk t).view.set := by
  have hN : cfg6.N = 100 := N_6
  have hi0 : (i 0).val < 1000000 := (i 0).isLt
  have hi1 : (i 1).val < 1 := (i 1).isLt
  obtain ⟨t, htv⟩ : ∃ t : Fin cfg6.N, t.val = (i 0).val / 10000 := ⟨⟨(i 0).val / 10000, by omega⟩, rfl⟩
  obtain ⟨-, -, -, -, -, -, e6, e7⟩ := idx6 t
  refine ⟨t, flush6_3 t, ?_⟩
  rw [mem_blk6]
  intro a
  match a with
  | ⟨0, _⟩ =>
    show win6_3.index t (0 : Fin 2) * 10000 ≤ (i 0).val ∧ (i 0).val < win6_3.index t (0 : Fin 2) * 10000 + 10000
    omega
  | ⟨1, _⟩ =>
    show win6_3.index t (1 : Fin 2) * 1 ≤ (i 1).val ∧ (i 1).val < win6_3.index t (1 : Fin 2) * 1 + 1
    omega

/-- THE ARRAY after the hundred points: the head of the arrays as the region finds them, at every row. -/
theorem final6 : (dat6 (F := Ideal) V c).arrAt 3 cfg6.N = Cert.Gcn.head2 (V c main_v72) (V c main_arg6) (V c main_v73) :=
  (dat6 (F := Ideal) V c).arrAt_eq_of_cover 3 _ (fun t _ => flushed6_eq V c t) cover6

end Cert.KernelIdeal.RegionVal

end
-- ==== Proof.Walk2.lean ====
import proofs.«123905_j21114059227766_1_alg».proof.Proof.Gen.KernelIdeal.Frame
import proofs.«123905_j21114059227766_1_alg».proof.Proof.KDefs
import proofs.«123905_j21114059227766_1_alg».proof.Proof.RegionT3
import proofs.«123905_j21114059227766_1_alg».proof.Proof.RegionMul4
import proofs.«123905_j21114059227766_1_alg».proof.Proof.RegionBR5
import proofs.«123905_j21114059227766_1_alg».proof.Proof.RegionFin6
import proofs.«123905_j21114059227766_1_alg».proof.Proof.Layout
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Cert.KernelIdeal.Facts₀ Cert.KernelIdeal.Facts
open Idealize.ShloMosaic.StableHlo

variable (m : (ℓ : Loc nD τ sig) → Buf (Elt Ideal) ℓ) (ρ : Dev nD → PrngReg) (c : Dev nD)

section
variable (hl : K.Live m c (W8 m ρ c))
include hl

/-- Region 3 writes only its output; its input arrays come back as entered. -/
theorem live9 : K.Live m c (W9 m ρ c) where
  v3 := (W9_of_ne m ρ c main_v3 (by decide)).trans hl.v3
  v6 := (W9_of_ne m ρ c main_v6 (by decide)).trans hl.v6
  v34 := (W9_of_ne m ρ c main_v34 (by decide)).trans hl.v34
  a3 := (W9_of_ne m ρ c main_arg3 (by decide)).trans hl.a3
  a4 := ((W9_arr m ρ c 1).trans (((dat3 (V8 m ρ) c).arrAt_in 1 rfl _).trans (A_eq3 (V8 m ρ) c 1))).trans hl.a4
  a5 := (W9_of_ne m ρ c main_arg5 (by decide)).trans hl.a5
  a6 := (W9_of_ne m ρ c main_arg6 (by decide)).trans hl.a6
  a7 := (W9_of_ne m ρ c main_arg7 (by decide)).trans hl.a7

variable (H : FVec Ideal S1000000x5 .f32) (hv : W8 m ρ c (Proc.devRef .tc main_v53) = H)
include hv

/-- The dense transform of the second layer. -/
theorem w9_v54 : W9 m ρ c (Proc.devRef .tc main_v54) = Cert.Gcn.lin H (m ((c.tc : Thread nD τ).loc main_arg4)) := by
  refine ((W9_arr m ρ c 2).trans (RegionVal.final3 (V8 m ρ) c)).trans ?_
  show Cert.Gcn.lin (W8 m ρ c (Proc.devRef .tc main_v53)) (W8 m ρ c (Proc.devRef .tc main_arg4)) = _
  rw [hv, hl.a4]

end

section
variable (hl : K.Live m c (W8 m ρ c))
include hl

theorem live10 : K.Live m c (W10 m ρ c) where
  v3 := by show StableHlo.after hostOps4 (W9 m ρ c) (Proc.devRef .tc main_v3) = _; after_results; exact (live9 m ρ c hl).v3
  v6 := by show StableHlo.after hostOps4 (W9 m ρ c) (Proc.devRef .tc main_v6) = _; after_results; exact (live9 m ρ c hl).v6
  v34 := by show StableHlo.after hostOps4 (W9 m ρ c) (Proc.devRef .tc main_v34) = _; after_results; exact (live9 m ρ c hl).v34
  a3 := by show StableHlo.after hostOps4 (W9 m ρ c) (Proc.devRef .tc main_arg3) = _; after_results; exact (live9 m ρ c hl).a3
  a4 := by show StableHlo.after hostOps4 (W9 m ρ c) (Proc.devRef .tc main_arg4) = _; after_results; exact (live9 m ρ c hl).a4
  a5 := by show StableHlo.after hostOps4 (W9 m ρ c) (Proc.devRef .tc main_arg5) = _; after_results; exact (live9 m ρ c hl).a5
  a6 := by show StableHlo.after hostOps4 (W9 m ρ c) (Proc.devRef .tc main_arg6) = _; after_results; exact (live9 m ρ c hl).a6
  a7 := by show StableHlo.after hostOps4 (W9 m ρ c) (Proc.devRef .tc main_arg7) = _; after_results; exact (live9 m ρ c hl).a7

variable (H : FVec Ideal S1000000x5 .f32) (hv : W8 m ρ c (Proc.devRef .tc main_v53) = H)
include hv

theorem w10_v64 : W10 m ρ c (Proc.devRef .tc main_v64)
    = K.flat5 (K.gat (K.ei m c) (Cert.Gcn.lin H (m ((c.tc : Thread nD τ).loc main_arg4)))) := by
  show StableHlo.after hostOps4 (W9 m ρ c) (Proc.devRef .tc main_v64) = _
  after_results
  rw [w9_v54 m ρ c hl H hv, (live9 m ρ c hl).v3]
  rfl

end

section
variable (hl : K.Live m c (W8 m ρ c))
include hl

/-- Region 4 writes only its output; the flattened weights are one of its inputs. -/
theorem live11 : K.Live m c (W11 m ρ c) where
  v3 := (W11_of_ne m ρ c main_v3 (by decide)).trans (live10 m ρ c hl).v3
  v6 := (W11_of_ne m ρ c main_v6 (by decide)).trans (live10 m ρ c hl).v6
  v34 := ((W11_arr m ρ c 1).trans (((dat4 (V10 m ρ) c).arrAt_in 1 rfl _).trans (A_eq4 (V10 m ρ) c 1))).trans (live10 m ρ c hl).v34
  a3 := (W11_of_ne m ρ c main_arg3 (by decide)).trans (live10 m ρ c hl).a3
  a4 := (W11_of_ne m ρ c main_arg4 (by decide)).trans (live10 m ρ c hl).a4
  a5 := (W11_of_ne m ρ c main_arg5 (by decide)).trans (live10 m ρ c hl).a5
  a6 := (W11_of_ne m ρ c main_arg6 (by decide)).trans (live10 m ρ c hl).a6
  a7 := (W11_of_ne m ρ c main_arg7 (by decide)).trans (live10 m ρ c hl).a7

variable (H : FVec Ideal S1000000x5 .f32) (hv : W8 m ρ c (Proc.devRef .tc main_v53) = H)
include hv

/-- The elementwise product of the flattened rows and the flattened weights. -/
theorem w11_v65 : W11 m ρ c (Proc.devRef .tc main_v65)
    = mulf (F := Ideal) (s := S1296000x128) (φ := .f32)
        (K.flat5 (K.gat (K.ei m c) (Cert.Gcn.lin H (m ((c.tc : Thread nD τ).loc main_arg4)))))
        (K.nrmFlat (K.nrm (K.ei m c))) := by
  refine ((W11_arr m ρ c 2).trans (RegionVal.final4 (V10 m ρ) c)).trans ?_
  show mulf (F := Ideal) (s := S1296000x128) (φ := .f32) (W10 m ρ c (Proc.devRef .tc main_v64)) (W10 m ρ c (Proc.devRef .tc main_v34)) = _
  rw [w10_v64 m ρ c hl H hv, (live10 m ρ c hl).v34]

end

/-- Flattening, multiplying lane by lane and unflattening is scaling each per-edge row by its edge's weight: the
    padding rows are dropped again, and lane `5 e + j` of the flattened weights holds the weight of edge `e`. -/
theorem unflat_mul (g : FVec Ideal S33000000x5 .f32) (n : FVec Ideal S33000000 .f32) :
    K.unflat (mulf (F := Ideal) (s := S1296000x128) (φ := .f32) (K.flat5 g) (K.nrmFlat n)) = Cert.Gcn.scale g n := by
  unfold K.unflat K.flat5 K.nrmFlat
  exact Cert.Gcn.unflat_flat_scale g n _ _ _ _ _ _ _ _ _ _

section
variable (hl : K.Live m c (W8 m ρ c))
include hl

/-- The second layer's bias, laid as one row. -/
theorem w12_v71 : W12 m ρ c (Proc.devRef .tc main_v71)
    = shapeCast S1x5 (m ((c.tc : Thread nD τ).loc main_arg5)) Facts₀.shapeCasts_S5_S1x5 := by
  show StableHlo.after hostOps5 (W11 m ρ c) (Proc.devRef .tc main_v71) = _
  after_results
  rw [(live11 m ρ c hl).a5]
  rfl

theorem w12_a6 : W12 m ρ c (Proc.devRef .tc main_arg6) = m ((c.tc : Thread nD τ).loc main_arg6) := by
  show StableHlo.after hostOps5 (W11 m ρ c) (Proc.devRef .tc main_arg6) = _
  after_results; exact (live11 m ρ c hl).a6

theorem w12_a7 : W12 m ρ c (Proc.devRef .tc main_arg7) = m ((c.tc : Thread nD τ).loc main_arg7) := by
  show StableHlo.after hostOps5 (W11 m ρ c) (Proc.devRef .tc main_arg7) = _
  after_results; exact (live11 m ρ c hl).a7

/-- Region 5 touches neither the head's weights nor its bias. -/
theorem w13_a6 : W13 m ρ c (Proc.devRef .tc main_arg6) = m ((c.tc : Thread nD τ).loc main_arg6) :=
  (W13_of_ne m ρ c main_arg6 (by decide)).trans (w12_a6 m ρ c hl)

theorem w13_a7 : W13 m ρ c (Proc.devRef .tc main_arg7) = m ((c.tc : Thread nD τ).loc main_arg7) :=
  (W13_of_ne m ρ c main_arg7 (by decide)).trans (w12_a7 m ρ c hl)

theorem w14_a6 : W14 m ρ c (Proc.devRef .tc main_arg6) = m ((c.tc : Thread nD τ).loc main_arg6) := by
  show StableHlo.after hostOps6 (W13 m ρ c) (Proc.devRef .tc main_arg6) = _
  after_results; exact w13_a6 m ρ c hl

/-- The head's bias, laid as `[1, 1]`. -/
theorem w14_v73 : W14 m ρ c (Proc.devRef .tc main_v73)
    = shapeCast S1x1 (m ((c.tc : Thread nD τ).loc main_arg7)) Facts₀.shapeCasts_S1_S1x1 := by
  show StableHlo.after hostOps6 (W13 m ρ c) (Proc.devRef .tc main_v73) = _
  after_results
  rw [w13_a7 m ρ c hl]
  rfl

variable (H : FVec Ideal S1000000x5 .f32) (hv : W8 m ρ c (Proc.devRef .tc main_v53) = H)
include hv

/-- The scaled rows summed into their destination nodes. -/
theorem w12_v70 : W12 m ρ c (Proc.devRef .tc main_v70)
    = K.sca (K.ei m c) (Cert.Gcn.scale (K.gat (K.ei m c) (Cert.Gcn.lin H (m ((c.tc : Thread nD τ).loc main_arg4))))
        (K.nrm (K.ei m c))) := by
  show StableHlo.after hostOps5 (W11 m ρ c) (Proc.devRef .tc main_v70) = _
  after_results
  rw [w11_v65 m ρ c hl H hv, (live11 m ρ c hl).v6]
  refine Eq.trans ?_ (congrArg (K.sca (K.ei m c)) (unflat_mul _ _))
  rfl

/-- Bias and positive part: the second layer's output. -/
theorem w13_v72 : W13 m ρ c (Proc.devRef .tc main_v72)
    = Cert.Gcn.layer (K.gat (K.ei m c)) (K.sca (K.ei m c)) (K.nrm (K.ei m c)) H
        (m ((c.tc : Thread nD τ).loc main_arg4)) (m ((c.tc : Thread nD τ).loc main_arg5)) := by
  refine ((W13_arr m ρ c 2).trans (RegionVal.final5 (V12 m ρ) c)).trans ?_
  show Cert.Gcn.biasRelu2 (W12 m ρ c (Proc.devRef .tc main_v70)) (W12 m ρ c (Proc.devRef .tc main_v71)) = _
  rw [w12_v70 m ρ c hl H hv, w12_v71 m ρ c hl, Cert.Gcn.biasRelu2_row]
  rfl

theorem w14_v72 : W14 m ρ c (Proc.devRef .tc main_v72)
    = Cert.Gcn.layer (K.gat (K.ei m c)) (K.sca (K.ei m c)) (K.nrm (K.ei m c)) H
        (m ((c.tc : Thread nD τ).loc main_arg4)) (m ((c.tc : Thread nD τ).loc main_arg5)) := by
  show StableHlo.after hostOps6 (W13 m ρ c) (Proc.devRef .tc main_v72) = _
  after_results; exact w13_v72 m ρ c hl H hv

end

/-- From the first layer's output `H` to the result array: the second layer, then the head. -/
theorem w15_v74 (H : FVec Ideal S1000000x5 .f32) (hl : K.Live m c (W8 m ρ c)) (hv : W8 m ρ c (Proc.devRef .tc main_v53) = H) :
    W15 m ρ c (Proc.devRef .tc main_v74)
    = Cert.Gcn.head (Cert.Gcn.layer (K.gat (K.ei m c)) (K.sca (K.ei m c)) (K.nrm (K.ei m c)) H
        (m ((c.tc : Thread nD τ).loc main_arg4)) (m ((c.tc : Thread nD τ).loc main_arg5)))
        (m ((c.tc : Thread nD τ).loc main_arg6)) (m ((c.tc : Thread nD τ).loc main_arg7)) := by
  refine ((W15_arr m ρ c 3).trans (RegionVal.final6 (V14 m ρ) c)).trans ?_
  show Cert.Gcn.head2 (W14 m ρ c (Proc.devRef .tc main_v72)) (W14 m ρ c (Proc.devRef .tc main_arg6))
    (W14 m ρ c (Proc.devRef .tc main_v73)) = _
  rw [w14_v72 m ρ c hl H hv, w14_a6 m ρ c hl, w14_v73 m ρ c hl, Cert.Gcn.head2_row]

end Cert.KernelIdeal.Walk

end
-- ==== Proof.RDefs.lean ====
/-
  The host-side pieces of the reference program, as functions of the edge list: the edge endpoints with the self
  loops appended (`src`, `dst`), a negative index wrapped once and laid as a column of start indices (`wrap`),
  the in-degree's inverse square root (`dis`), the per-edge weight `nrm e = dis (src e) · dis (dst e)`, the row gather
  `gat` and the scatter-add `sca`.
-/
import proofs.«123905_j21114059227766_1_alg».proof.Proof.Gen.ReferenceIdeal
import proofs.«123905_j21114059227766_1_alg».proof.Proof.Spec

noncomputable section

namespace Cert.ReferenceIdeal.R

open Cert.ReferenceIdeal Idealize.ShloMosaic Idealize.ShloMosaic.TcCoe
open Cert.ReferenceIdeal.Facts₀ Cert.ReferenceIdeal.Facts

/-- The edge list `[2, 32000000]`. -/
abbrev EI : Type := (⟨S2x32000000, .i32⟩ : BufTy).Contents (Elt Ideal)
abbrev IE : Type := (⟨S33000000, .i32⟩ : BufTy).Contents (Elt Ideal)
abbrev IE1 : Type := (⟨S33000000x1, .i32⟩ : BufTy).Contents (Elt Ideal)

/-- Row 0 of the edge list, then the self loops `0 … N-1`. -/
def src (ei : EI) : IE :=
  concatenate S33000000 0 [⟨S32000000, (shapeCast S32000000 (extractStridedSlice S1x32000000 ![0, 0] ei slices_S2x32000000_S1x32000000_0_0) shapeCasts_S1x32000000_S32000000)⟩, ⟨S1000000, (iotaInDim S1000000 32 0)⟩] concatenates_S32000000_S1000000_S33000000_d0

/-- Row 1 of the edge list, then the self loops. -/
def dst (ei : EI) : IE :=
  concatenate S33000000 0 [⟨S32000000, (shapeCast S32000000 (extractStridedSlice S1x32000000 ![1, 0] ei slices_S2x32000000_S1x32000000_1_0) shapeCasts_S1x32000000_S32000000)⟩, ⟨S1000000, (iotaInDim S1000000 32 0)⟩] concatenates_S32000000_S1000000_S33000000_d0

/-- A negative index moved up by the number of nodes, as a column of start indices. -/
def wrap (v : IE) : IE1 :=
  broadcastInDim S33000000x1 ![0] bcast_S33000000_S33000000x1_0
    (select (cmpi .slt v (broadcastInDim S33000000 ![] bcast_S_S33000000 (constantI S_ 32 0#32)))
      (addi v (broadcastInDim S33000000 ![] bcast_S_S33000000 (constantI S_ 32 1000000#32))) v)

/-- The in-degree: ones scattered over `dst`. -/
def deg (ei : EI) : FVec Ideal S1000000 .f32 :=
  Host.scatterAdd scatter_S1000000_S33000000x1_S33000000_n_0_0_1
    (broadcastInDim S1000000 ![] bcast_S_S1000000 (constant (F := Ideal) S_ .f32 0x00000000#32))
    (broadcastInDim S33000000x1 ![0] bcast_S33000000_S33000000x1_0 (dst ei))
    (broadcastInDim S33000000 ![] bcast_S_S33000000 (constant (F := Ideal) S_ .f32 0x3F800000#32))

/-- `deg^(-1/2)` where the degree is positive, zero elsewhere. -/
def dis (ei : EI) : FVec Ideal S1000000 .f32 :=
  select (cmpf .ogt (deg ei) (broadcastInDim S1000000 ![] bcast_S_S1000000 (constant (F := Ideal) S_ .f32 0x00000000#32)))
    (Host.rsqrt (deg ei))
    (broadcastInDim S1000000 ![] bcast_S_S1000000 (id (constant (F := Ideal) S_ .f32 0x00000000#32)))

/-- The edge weights `dis (src e) · dis (dst e)`. -/
def nrm (ei : EI) : FVec Ideal S33000000 .f32 :=
  mulf (Host.gather gather_S1000000_S33000000x1_S33000000_n_0_n_n_0_1_1 (dis ei) (wrap (src ei)))
    (Host.gather gather_S1000000_S33000000x1_S33000000_n_0_n_n_0_1_1 (dis ei) (wrap (dst ei)))

/-- The rows `src e` of a node array. -/
def gat (ei : EI) (z : FVec Ideal S1000000x5 .f32) : FVec Ideal S33000000x5 .f32 :=
  Host.gather gather_S1000000x5_S33000000x1_S33000000x5_1_0_n_n_0_1_15 z (wrap (src ei))

/-- Per-edge rows summed into the rows `dst e` of a zero node array. -/
def sca (ei : EI) (u : FVec Ideal S33000000x5 .f32) : FVec Ideal S1000000x5 .f32 :=
  Host.scatterAdd scatter_S1000000x5_S33000000x1_S33000000x5_1_0_0_1
    (broadcastInDim S1000000x5 ![] bcast_S_S1000000x5 (constant (F := Ideal) S_ .f32 0x00000000#32))
    (broadcastInDim S33000000x1 ![0] bcast_S33000000_S33000000x1_0 (dst ei)) u

end Cert.ReferenceIdeal.R

end
-- ==== Proof.RefValue.lean ====
import proofs.«123905_j21114059227766_1_alg».proof.Proof.RefRun
import proofs.«123905_j21114059227766_1_alg».proof.Proof.RDefs
import proofs.«123905_j21114059227766_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Idealize.ShloMosaic Idealize.ShloMosaic.TcCoe Idealize.SL.Sem
open Cert.ReferenceIdeal.Facts₀ Cert.ReferenceIdeal.Facts

open Idealize.ShloMosaic.ValueIdx
open scoped BigOperators

/-! ## The four operators of the reference read at an index

Each is a literal composition of host operations; read at an index it is the corresponding function of the
network: a contraction over the shared axis is the finite sum, a value broadcast along an axis is read at the
coordinates it keeps. -/
/-- The left operand's index on its kept axis is the output row. -/
theorem lhs55_0 (j : S1000000x5.Idx) (k : dot_S1000000x5_S5x5_S1000000x5_1_0_0_1_n_n.contr.Idx) :
    (dot_S1000000x5_S5x5_S1000000x5_1_0_0_1_n_n.lhsIdx j k 0).val = (j 0).val := by
  simp [DotDims.lhsIdx, dot_S1000000x5_S5x5_S1000000x5_1_0_0_1_n_n]
  rfl

/-- The left operand's index on its contracted axis is the contraction position. -/
theorem lhs55_1 (j : S1000000x5.Idx) (k : dot_S1000000x5_S5x5_S1000000x5_1_0_0_1_n_n.contr.Idx) :
    (dot_S1000000x5_S5x5_S1000000x5_1_0_0_1_n_n.lhsIdx j k 1).val = (k ⟨0, by decide⟩).val :=
  dot_S1000000x5_S5x5_S1000000x5_1_0_0_1_n_n.lhsIdx_val_of_single (cl := 1) rfl j k

/-- The right operand's index on its contracted axis is the contraction position. -/
theorem rhs55_0 (j : S1000000x5.Idx) (k : dot_S1000000x5_S5x5_S1000000x5_1_0_0_1_n_n.contr.Idx) :
    (dot_S1000000x5_S5x5_S1000000x5_1_0_0_1_n_n.rhsIdx j k 0).val = (k ⟨0, by decide⟩).val :=
  dot_S1000000x5_S5x5_S1000000x5_1_0_0_1_n_n.rhsIdx_val_of_single (cr := 0) rfl j k

/-- The right operand's index on its kept axis is the output column. -/
theorem rhs55_1 (j : S1000000x5.Idx) (k : dot_S1000000x5_S5x5_S1000000x5_1_0_0_1_n_n.contr.Idx) :
    (dot_S1000000x5_S5x5_S1000000x5_1_0_0_1_n_n.rhsIdx j k 1).val = (j 1).val := by
  simp [DotDims.rhsIdx, dot_S1000000x5_S5x5_S1000000x5_1_0_0_1_n_n]
  rfl

/-- The dense transform: the host's dot_general over axes (1 | 0) read at an index is the sum over the shared axis. -/
theorem lin_eq (x : FVec Ideal S1000000x5 .f32) (w : FVec Ideal S5x5 .f32) :
    Host.dotGeneral (F := Ideal) dot_S1000000x5_S5x5_S1000000x5_1_0_0_1_n_n none x w = Cert.Gcn.lin x w := by
  funext j
  show FloatOps.dotGeneral _ none _ x w j = _
  rw [Ideal.dotGeneral_apply,
    ← Equiv.sum_comp (contrEquiv1 dot_S1000000x5_S5x5_S1000000x5_1_0_0_1_n_n 5 rfl rfl).symm]
  unfold Cert.Gcn.lin
  refine Finset.sum_congr rfl fun c _ => ?_
  have hc := contrEquiv1_symm_val dot_S1000000x5_S5x5_S1000000x5_1_0_0_1_n_n 5 rfl rfl c
  have hl : dot_S1000000x5_S5x5_S1000000x5_1_0_0_1_n_n.lhsIdx j
      ((contrEquiv1 dot_S1000000x5_S5x5_S1000000x5_1_0_0_1_n_n 5 rfl rfl).symm c) = ix2 (j 0) c := by
    funext a; apply Fin.ext
    match a with
    | ⟨0, _⟩ => exact lhs55_0 _ _
    | ⟨1, _⟩ => exact (lhs55_1 _ _).trans hc
  have hr : dot_S1000000x5_S5x5_S1000000x5_1_0_0_1_n_n.rhsIdx j
      ((contrEquiv1 dot_S1000000x5_S5x5_S1000000x5_1_0_0_1_n_n 5 rfl rfl).symm c) = ix2 c (j 1) := by
    funext a; apply Fin.ext
    match a with
    | ⟨0, _⟩ => exact (rhs55_0 _ _).trans hc
    | ⟨1, _⟩ => exact rhs55_1 _ _
  rw [hl, hr]
  rfl

/-- An edge row times its edge's weight: the weight laid as a column, then across the five features. -/
theorem scale_eq (g : FVec Ideal S33000000x5 .f32) (n : FVec Ideal S33000000 .f32) :
    mulf g (broadcastInDim S33000000x5 ![0, 1] bcast_S33000000x1_S33000000x5_0_1
      (broadcastInDim S33000000x1 ![0] bcast_S33000000_S33000000x1_0 n)) = Cert.Gcn.scale g n := by
  funext j
  obtain ⟨p, q, rfl⟩ : ∃ (p : Fin 33000000) (q : Fin 5), j = ix2 p q := ⟨j 0, j 1, eq_ix2 j⟩
  have e1 := broadcastInDim_apply ![0, 1] bcast_S33000000x1_S33000000x5_0_1
    (broadcastInDim S33000000x1 ![0] bcast_S33000000_S33000000x1_0 n) (ix2 p q) (ix2 p (0 : Fin 1))
    (fun a => by match a with | ⟨0, _⟩ => rfl | ⟨1, _⟩ => rfl)
  have e2 := broadcastInDim_apply ![0] bcast_S33000000_S33000000x1_0 n (ix2 p (0 : Fin 1)) (ix1 p)
    (fun a => by match a with | ⟨0, _⟩ => rfl)
  exact congrArg (g (ix2 p q) * ·) (e1.trans e2)

/-- Bias laid as one row, then down the rows, added; then the positive part against the zero splat. -/
theorem biasRelu_eq (a : FVec Ideal S1000000x5 .f32) (b : FVec Ideal S5 .f32) :
    maximumf (addf a (broadcastInDim S1000000x5 ![0, 1] bcast_S1x5_S1000000x5_0_1
        (broadcastInDim S1x5 ![1] bcast_S5_S1x5_1 b)))
      (broadcastInDim S1000000x5 ![] bcast_S_S1000000x5 (constant (F := Ideal) S_ .f32 0x00000000#32))
      = Cert.Gcn.biasRelu a b := by
  funext j
  obtain ⟨p, q, rfl⟩ : ∃ (p : Fin 1000000) (q : Fin 5), j = ix2 p q := ⟨j 0, j 1, eq_ix2 j⟩
  have e1 := broadcastInDim_apply ![0, 1] bcast_S1x5_S1000000x5_0_1
    (broadcastInDim S1x5 ![1] bcast_S5_S1x5_1 b) (ix2 p q) (ix2 (0 : Fin 1) q)
    (fun a => by match a with | ⟨0, _⟩ => rfl | ⟨1, _⟩ => rfl)
  have e2 := broadcastInDim_apply ![1] bcast_S5_S1x5_1 b (ix2 (0 : Fin 1) q) (ix1 q)
    (fun a => by match a with | ⟨0, _⟩ => rfl)
  have e3 := broadcastInDim_apply ![] bcast_S_S1000000x5 (constant (F := Ideal) S_ .f32 0x00000000#32) (ix2 p q) ix0
    (fun a => a.elim0)
  show max (a (ix2 p q) + _) _ = max (a (ix2 p q) + b (ix1 q)) (Ideal.ofBits .f32 0x00000000#32)
  rw [e1.trans e2, e3]
  rfl

/-- The head's left operand index on its kept axis is the output row. -/
theorem lhs51_0 (j : S1000000x1.Idx) (k : dot_S1000000x5_S5x1_S1000000x1_1_0_0_1_n_n.contr.Idx) :
    (dot_S1000000x5_S5x1_S1000000x1_1_0_0_1_n_n.lhsIdx j k 0).val = (j 0).val := by
  simp [DotDims.lhsIdx, dot_S1000000x5_S5x1_S1000000x1_1_0_0_1_n_n]
  rfl

/-- The head's left operand index on its contracted axis is the contraction position. -/
theorem lhs51_1 (j : S1000000x1.Idx) (k : dot_S1000000x5_S5x1_S1000000x1_1_0_0_1_n_n.contr.Idx) :
    (dot_S1000000x5_S5x1_S1000000x1_1_0_0_1_n_n.lhsIdx j k 1).val = (k ⟨0, by decide⟩).val :=
  dot_S1000000x5_S5x1_S1000000x1_1_0_0_1_n_n.lhsIdx_val_of_single (cl := 1) rfl j k

/-- The head's right operand index on its contracted axis is the contraction position. -/
theorem rhs51_0 (j : S1000000x1.Idx) (k : dot_S1000000x5_S5x1_S1000000x1_1_0_0_1_n_n.contr.Idx) :
    (dot_S1000000x5_S5x1_S1000000x1_1_0_0_1_n_n.rhsIdx j k 0).val = (k ⟨0, by decide⟩).val :=
  dot_S1000000x5_S5x1_S1000000x1_1_0_0_1_n_n.rhsIdx_val_of_single (cr := 0) rfl j k

/-- The head's right operand index on its kept axis is the output column. -/
theorem rhs51_1 (j : S1000000x1.Idx) (k : dot_S1000000x5_S5x1_S1000000x1_1_0_0_1_n_n.contr.Idx) :
    (dot_S1000000x5_S5x1_S1000000x1_1_0_0_1_n_n.rhsIdx j k 1).val = (j 1).val := by
  have h1 : (dot_S1000000x5_S5x1_S1000000x1_1_0_0_1_n_n.rhsIdx j k 1).val < 1 :=
    (dot_S1000000x5_S5x1_S1000000x1_1_0_0_1_n_n.rhsIdx j k 1).isLt
  have h2 : (j 1).val < 1 := (j 1).isLt
  omega

/-- The head's product read at an index: the sum over the five features. -/
theorem headLin_apply (h : FVec Ideal S1000000x5 .f32) (wl : FVec Ideal S5x1 .f32) (j : S1000000x1.Idx) :
    Host.dotGeneral (F := Ideal) dot_S1000000x5_S5x1_S1000000x1_1_0_0_1_n_n none h wl j
      = ∑ k : Fin 5, h (ix2 (j 0) k) * wl (ix2 k (j 1)) := by
  show FloatOps.dotGeneral _ none _ h wl j = _
  rw [Ideal.dotGeneral_apply,
    ← Equiv.sum_comp (contrEquiv1 dot_S1000000x5_S5x1_S1000000x1_1_0_0_1_n_n 5 rfl rfl).symm]
  refine Finset.sum_congr rfl fun c _ => ?_
  have hc := contrEquiv1_symm_val dot_S1000000x5_S5x1_S1000000x1_1_0_0_1_n_n 5 rfl rfl c
  have hl : dot_S1000000x5_S5x1_S1000000x1_1_0_0_1_n_n.lhsIdx j
      ((contrEquiv1 dot_S1000000x5_S5x1_S1000000x1_1_0_0_1_n_n 5 rfl rfl).symm c) = ix2 (j 0) c := by
    funext a; apply Fin.ext
    match a with
    | ⟨0, _⟩ => exact lhs51_0 _ _
    | ⟨1, _⟩ => exact (lhs51_1 _ _).trans hc
  have hr : dot_S1000000x5_S5x1_S1000000x1_1_0_0_1_n_n.rhsIdx j
      ((contrEquiv1 dot_S1000000x5_S5x1_S1000000x1_1_0_0_1_n_n 5 rfl rfl).symm c) = ix2 c (j 1) := by
    funext a; apply Fin.ext
    match a with
    | ⟨0, _⟩ => exact (rhs51_0 _ _).trans hc
    | ⟨1, _⟩ => exact rhs51_1 _ _
  rw [hl, hr]
  rfl

/-- The head: the product plus the one bias entry, laid as [1, 1] and then down the rows. -/
theorem head_eq (h : FVec Ideal S1000000x5 .f32) (wl : FVec Ideal S5x1 .f32) (bl : FVec Ideal S1 .f32) :
    addf (Host.dotGeneral (F := Ideal) dot_S1000000x5_S5x1_S1000000x1_1_0_0_1_n_n none h wl)
      (broadcastInDim S1000000x1 ![0, 1] bcast_S1x1_S1000000x1_0_1 (broadcastInDim S1x1 ![1] bcast_S1_S1x1_1 bl))
      = Cert.Gcn.head h wl bl := by
  funext j
  obtain ⟨p, q, rfl⟩ : ∃ (p : Fin 1000000) (q : Fin 1), j = ix2 p q := ⟨j 0, j 1, eq_ix2 j⟩
  have e1 := broadcastInDim_apply ![0, 1] bcast_S1x1_S1000000x1_0_1
    (broadcastInDim S1x1 ![1] bcast_S1_S1x1_1 bl) (ix2 p q) (ix2 (0 : Fin 1) (0 : Fin 1))
    (fun a => by match a with | ⟨0, _⟩ => rfl | ⟨1, _⟩ => rfl)
  have e2 := broadcastInDim_apply ![1] bcast_S1_S1x1_1 bl (ix2 (0 : Fin 1) (0 : Fin 1)) (ix1 (0 : Fin 1))
    (fun a => by match a with | ⟨0, _⟩ => rfl)
  have e0 := headLin_apply h wl (ix2 p q)
  show _ + _ = (∑ k : Fin 5, h (ix2 p k) * wl (ix2 k q)) + bl (ix1 0)
  rw [e1.trans e2, e0]

/-! ## The whole result -/

variable (m : (ℓ : Loc nD τ sig) → Buf (Elt Ideal) ℓ) (c : Dev nD)

/-- The reference's result is the network over the reference's own gather, scatter-add and edge weights. -/
theorem res_eq : Cert.ReferenceIdeal.RunP.res_main_v84 (F := Ideal) m c
    = Cert.Gcn.out (R.gat (m ((c.tc : Thread nD τ).loc main_arg1))) (R.sca (m ((c.tc : Thread nD τ).loc main_arg1))) (R.nrm (m ((c.tc : Thread nD τ).loc main_arg1)))
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) := by
  -- the dense transforms, the edge scalings, the two bias-and-positive-part steps and the head, each named
  unfold RunP.res_main_v84
  rw [lin_eq, lin_eq, scale_eq, scale_eq, biasRelu_eq, biasRelu_eq, head_eq]
  -- what is left on both sides is the same composition of the reference's gather, scatter-add and edge weights
  unfold Cert.Gcn.out Cert.Gcn.layer R.gat R.sca R.nrm R.dis R.deg R.wrap R.src R.dst
  with_reducible rfl

end Cert.ReferenceIdeal.RefValue

end
-- ==== Proof.Bridge.lean ====
/-
  The two programs gather the same rows, scatter-add into the same rows and weigh the edges alike: their host
  operations on the edge list are the same operations, each program's own copy of the dimension records and of the
  layout side conditions apart.
-/
import proofs.«123905_j21114059227766_1_alg».proof.Proof.KDefs
import proofs.«123905_j21114059227766_1_alg».proof.Proof.RDefs

noncomputable section

namespace Cert.Bridge

open Idealize.ShloMosaic Cert.KernelIdeal

theorem src_eq (ei : K.EI) : Cert.ReferenceIdeal.R.src ei = K.src ei := rfl
theorem dst_eq (ei : K.EI) : Cert.ReferenceIdeal.R.dst ei = K.dst ei := rfl
theorem wrap_eq (v : K.IE) : Cert.ReferenceIdeal.R.wrap v = K.wrap v := rfl
theorem deg_eq (ei : K.EI) : Cert.ReferenceIdeal.R.deg ei = K.deg ei := by
  unfold Cert.ReferenceIdeal.R.deg K.deg; rw [dst_eq]; rfl
theorem dis_eq (ei : K.EI) : Cert.ReferenceIdeal.R.dis ei = K.dis ei := by
  unfold Cert.ReferenceIdeal.R.dis K.dis; rw [deg_eq]
theorem nrm_eq (ei : K.EI) : Cert.ReferenceIdeal.R.nrm ei = K.nrm ei := by
  unfold Cert.ReferenceIdeal.R.nrm K.nrm; rw [dis_eq, src_eq, dst_eq, wrap_eq, wrap_eq]; rfl
theorem gat_eq (ei : K.EI) : Cert.ReferenceIdeal.R.gat ei = K.gat ei := by
  funext z; unfold Cert.ReferenceIdeal.R.gat K.gat; rw [src_eq, wrap_eq]; rfl
theorem sca_eq (ei : K.EI) : Cert.ReferenceIdeal.R.sca ei = K.sca ei := by
  funext u; unfold Cert.ReferenceIdeal.R.sca K.sca; rw [dst_eq]; rfl

end Cert.Bridge

end
-- ==== Proof.lean ====
/-
  Two graph-convolution layers and a linear head on a graph with self loops: the kernel against its jnp reference,
  over the extended reals.

  Both programs compute, per layer, `relu (scatter_add over dst ((h · W)[src e, :] · norm e) + b)` with
  `norm e = deg(src e)^(-1/2) · deg(dst e)^(-1/2)`, then `h · Wl + bl` (Proof/Spec.lean). The kernel runs the dense
  transform, the per-edge product, the bias-and-relu and the head as seven pipelined kernel regions, block by
  block; each region's output array is the spec's function of its input arrays (Proof/Region*.lean). Between
  the transform and the scatter-add the kernel pads the gathered rows and the edge weights with zero rows, lays both
  128 to a row, multiplies elementwise and lays the product back: index by index that is the row times its edge's
  weight (Proof/Layout.lean). Walking the program's segments in order (Proof/Walk1.lean, Proof/Walk2.lean) the result
  array ends at the spec's network over the kernel's own gather, scatter-add and edge weights; the reference's
  result is the same network over the reference's (Proof/RefValue.lean); and those three are the same functions of the
  edge list (Proof/Bridge.lean). No algebraic law beyond reading sums and products index by index is needed, so the
  precondition (finite inputs) is never opened. The ideal pass rewrote nothing: `preserves` is `True`.
-/
import proofs.«123905_j21114059227766_1_alg».proof.Defs
import proofs.«123905_j21114059227766_1_alg».proof.Proof.Gen.Kernel
import proofs.«123905_j21114059227766_1_alg».proof.Proof.Gen.Kernel.Frame
import proofs.«123905_j21114059227766_1_alg».proof.Proof.Gen.KernelIdeal
import proofs.«123905_j21114059227766_1_alg».proof.Proof.Gen.KernelIdeal.Frame
import proofs.«123905_j21114059227766_1_alg».proof.Proof.Gen.ReferenceIdeal
import proofs.«123905_j21114059227766_1_alg».proof.Proof.Gen.Pre_finite_inputs
import proofs.«123905_j21114059227766_1_alg».proof.Proof.KernelRun
import proofs.«123905_j21114059227766_1_alg».proof.Proof.Walk1
import proofs.«123905_j21114059227766_1_alg».proof.Proof.Walk2
import proofs.«123905_j21114059227766_1_alg».proof.Proof.RefRun
import proofs.«123905_j21114059227766_1_alg».proof.Proof.RefValue
import proofs.«123905_j21114059227766_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the network of Proof/Spec.lean over the same gather, scatter-add and edge weights, at
    arguments that agree. -/
theorem algebraic : Cert.algebraic_KernelIdeal_ReferenceIdeal := by
  intro m ρ m' ρ' _ hagree
  refine ⟨fun c => Cert.Gcn.out (Cert.KernelIdeal.K.gat (Cert.KernelIdeal.K.ei m c)) (Cert.KernelIdeal.K.sca (Cert.KernelIdeal.K.ei m c))
      (Cert.KernelIdeal.K.nrm (Cert.KernelIdeal.K.ei m c))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Run.run_out (F := Ideal) m ρ)
    exact Cert.KernelIdeal.Walk.w15_v74 m ρ c _ (Cert.KernelIdeal.Walk.live8 m ρ c) (Cert.KernelIdeal.Walk.w8_v53 m ρ c)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]
    rw [Cert.Bridge.gat_eq, Cert.Bridge.sca_eq, Cert.Bridge.nrm_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
